-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x8 : Shape := ⟨2, ![1024, 8]⟩
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192 : S_.BroadcastsInDim S8192 (![] : Fin 0 → Fin S8192.rank)
  reducesTo_S8192_S_d0 : S8192.ReducesTo [0] S_
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : IVec S1024x8 32) (main_arg1 : FVec F S8192x8192 .f32) (main_arg2 : FVec F S8192 .f32) : IVec S_ 1 :=
  let main_v0 : FVec F S8192x8192 .f32 := Host.absf main_arg1
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_c_2 : IVec S_ 32 := constantI S_ 32 0#32
  let main_v9 : IVec S1024x8 32 := broadcastInDim S1024x8 ![] bcast_S_S1024x8 main_c_2
  let main_v10 : IVec S1024x8 1 := cmpi .sge main_arg0 main_v9
  let main_c_3 : IVec S_ 32 := constantI S_ 32 1024#32
  let main_v11 : IVec S1024x8 32 := broadcastInDim S1024x8 ![] bcast_S_S1024x8 main_c_3
  let main_v12 : IVec S1024x8 1 := cmpi .slt main_arg0 main_v11
  let main_v13 : IVec S1024x8 1 := andi main_v10 main_v12
  let main_c_4 : IVec S_ 1 := constantI S_ 1 1#1
  let main_v14 : IVec S_ 1 := (fun x v => Host.reduce IntOp.andi x v reducesTo_S1024x8_S_d0_1 h_S_) main_v13 main_c_4
  let main_v15 : IVec S_ 1 := andi main_v8 main_v14
  main_v15
-- ==== Kernel.lean ====
abbrev S1024x8 : Shape := ⟨2, ![1024, 8]⟩
abbrev S8192x8192 : Shape := ⟨2, ![8192, 8192]⟩
abbrev S8192 : Shape := ⟨1, ![8192]⟩
abbrev S_ : Shape := ⟨0, ![]⟩
abbrev S1024x8x1 : Shape := ⟨3, ![1024, 8, 1]⟩
abbrev S1x1x1024 : Shape := ⟨3, ![1, 1, 1024]⟩
abbrev S1024x8x1024 : Shape := ⟨3, ![1024, 8, 1024]⟩
abbrev S8x1024x1024 : Shape := ⟨3, ![8, 1024, 1024]⟩
abbrev S1x8192 : Shape := ⟨2, ![1, 8192]⟩
abbrev S1024x8192 : Shape := ⟨2, ![1024, 8192]⟩
abbrev S1024x1024 : Shape := ⟨2, ![1024, 1024]⟩
abbrev S1x1024 : Shape := ⟨2, ![1, 1024]⟩
abbrev S1x1024x1024 : Shape := ⟨3, ![1, 1024, 1024]⟩

abbrev nBuf : Space → Nat
  | .hbm => 21
  | .vmem => 7
  | .smem => 0
  | _ => 0

abbrev bufTy : (tb : Table) → Fin (tcTables nBuf tb) → BufTy
  | .hbm, ⟨0, _⟩ => ⟨S1024x8, .i32⟩
  | .hbm, ⟨1, _⟩ => ⟨S8192x8192, .f32⟩
  | .hbm, ⟨2, _⟩ => ⟨S8192, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S1024x8, .i32⟩
  | .hbm, ⟨7, _⟩ => ⟨S1024x8, .i32⟩
  | .hbm, ⟨8, _⟩ => ⟨S_, .i32⟩
  | .hbm, ⟨9, _⟩ => ⟨S1024x8, .i32⟩
  | .hbm, ⟨10, _⟩ => ⟨S1024x8, .i32⟩
  | .hbm, ⟨11, _⟩ => ⟨S1024x8x1, .i32⟩
  | .hbm, ⟨12, _⟩ => ⟨S1x1x1024, .i32⟩
  | .hbm, ⟨13, _⟩ => ⟨S1024x8x1024, .i32⟩
  | .hbm, ⟨14, _⟩ => ⟨S1024x8x1024, .i32⟩
  | .hbm, ⟨15, _⟩ => ⟨S1024x8x1024, .i1⟩
  | .hbm, ⟨16, _⟩ => ⟨S1024x8x1024, .bf16⟩
  | .hbm, ⟨17, _⟩ => ⟨S8x1024x1024, .bf16⟩
  | .hbm, ⟨18, _⟩ => ⟨S1x8192, .f32⟩
  | .hbm, ⟨19, _⟩ => ⟨S1024x8192, .f32⟩
  | .hbm, ⟨20, _⟩ => ⟨S1024x8x1024, .f32⟩
  | .local _ .vmem, ⟨0, _⟩ => ⟨S8x1024x1024, .bf16⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S1024x1024, .f32⟩
  | .local _ .vmem, ⟨6, _⟩ => ⟨S1024x1024, .f32⟩
  | _, _ => ⟨S1024x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v0 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 8], ![false, false]⟩

def k0_off1 (i : grid0.Coords) : Fin 3 → Nat :=
  let arg1 : BitVec 32 := BitVec.ofNat 32 (i 1).val
  let v0 : Index := Scalar.indexCast arg1
  let c0 : Index := 0#32
  let c0_0 : Index := 0#32
  ![v0.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S8x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S1024x8 : S_.BroadcastsInDim S1024x8 (![] : Fin 0 → Fin S1024x8.rank)
  bcast_S1024x8_S1024x8x1_0_1 : S1024x8.BroadcastsInDim S1024x8x1 (![0, 1] : Fin 2 → Fin S1024x8x1.rank)
  bcast_S1024x8x1_S1024x8x1024_0_1_2 : S1024x8x1.BroadcastsInDim S1024x8x1024 (![0, 1, 2] : Fin 3 → Fin S1024x8x1024.rank)
  bcast_S1x1x1024_S1024x8x1024_0_1_2 : S1x1x1024.BroadcastsInDim S1024x8x1024 (![0, 1, 2] : Fin 3 → Fin S1024x8x1024.rank)
  transposes_S1024x8x1024_S8x1024x1024_1_0_2 : S1024x8x1024.Transposes [1, 0, 2] S8x1024x1024
  shapeCasts_S8192_S1x8192 : S8192.ShapeCasts S1x8192
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1024x1024 : S1024x1024.ShapeCasts S1024x1024
  shapeCasts_S1024x8192_S1024x8x1024 : S1024x8192.ShapeCasts S1024x8x1024
  dot_S1024x1024_S1024x1024_S1024x1024_1_1_0_0_n_n_wf : DotDims.WF S1024x1024 S1024x1024 S1024x1024 [1] [1] [0] [0] [] []
  hrank0 : 0 < grid0.rank
  k0_off1_inb : ∀ i : grid0.Coords, ∀ a, (k0_off1 i) a + S1x1024x1024.size a ≤ S8x1024x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x1024x1024.size a ≤ S8x1024x1024.size a
  hwx0_0 : ∀ i : grid0.Coords, EltTy.bits .bf16 = 32 ∨ (Rect.block (s := S8x1024x1024) S8x1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x8192.size a
  hwx0_1 : ∀ i : grid0.Coords, EltTy.bits .f32 = 32 ∨ (Rect.block (s := S8192x8192) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x8192.size a
  hwx0_2 : ∀ i : grid0.Coords, EltTy.bits .f32 = 32 ∨ (Rect.block (s := S1x8192) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x8192.size a
  hwx0_3 : ∀ i : grid0.Coords, EltTy.bits .f32 = 32 ∨ (Rect.block (s := S1024x8192) S1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v2) S8x1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x8 : Shape := ⟨2, ![1024, 8]⟩
abbrev S8192x8192 : Shape := ⟨2, ![8192, 8192]⟩
abbrev S8192 : Shape := ⟨1, ![8192]⟩
abbrev S8 : Shape := ⟨1, ![8]⟩
abbrev S_ : Shape := ⟨0, ![]⟩
abbrev S1x8 : Shape := ⟨2, ![1, 8]⟩
abbrev S1024x8x1 : Shape := ⟨3, ![1024, 8, 1]⟩
abbrev S1 : Shape := ⟨1, ![1]⟩
abbrev S1x1x1 : Shape := ⟨3, ![1, 1, 1]⟩
abbrev S8192x1024x8 : Shape := ⟨3, ![8192, 1024, 8]⟩
abbrev S8192x1024 : Shape := ⟨2, ![8192, 1024]⟩
abbrev S1024x8192 : Shape := ⟨2, ![1024, 8192]⟩
abbrev S1x8192 : Shape := ⟨2, ![1, 8192]⟩
abbrev S1024x8x1024 : Shape := ⟨3, ![1024, 8, 1024]⟩

abbrev nBuf : Space → Nat
  | .hbm => 40
  | .vmem => 0
  | .smem => 0
  | _ => 0

abbrev bufTy : (tb : Table) → Fin (tcTables nBuf tb) → BufTy
  | .hbm, ⟨0, _⟩ => ⟨S1024x8, .i32⟩
  | .hbm, ⟨1, _⟩ => ⟨S8192x8192, .f32⟩
  | .hbm, ⟨2, _⟩ => ⟨S8192, .f32⟩
  | .hbm, ⟨3, _⟩ => ⟨S8, .i32⟩
  | .hbm, ⟨4, _⟩ => ⟨S_, .i32⟩
  | .hbm, ⟨5, _⟩ => ⟨S8, .i32⟩
  | .hbm, ⟨6, _⟩ => ⟨S8, .i32⟩
  | .hbm, ⟨7, _⟩ => ⟨S1x8, .i32⟩
  | .hbm, ⟨8, _⟩ => ⟨S1024x8, .i32⟩
  | .hbm, ⟨9, _⟩ => ⟨S1024x8, .i32⟩
  | .hbm, ⟨10, _⟩ => ⟨S_, .i32⟩
  | .hbm, ⟨11, _⟩ => ⟨S1024x8, .i32⟩
  | .hbm, ⟨12, _⟩ => ⟨S1024x8, .i1⟩
  | .hbm, ⟨13, _⟩ => ⟨S_, .i32⟩
  | .hbm, ⟨14, _⟩ => ⟨S1024x8, .i32⟩
  | .hbm, ⟨15, _⟩ => ⟨S1024x8, .i32⟩
  | .hbm, ⟨16, _⟩ => ⟨S1024x8, .i32⟩
  | .hbm, ⟨17, _⟩ => ⟨S1024x8x1, .i32⟩
  | .hbm, ⟨18, _⟩ => ⟨S1, .i32⟩
  | .hbm, ⟨19, _⟩ => ⟨S_, .i32⟩
  | .hbm, ⟨20, _⟩ => ⟨S1024x8x1, .i32⟩
  | .hbm, ⟨21, _⟩ => ⟨S1024x8x1, .i1⟩
  | .hbm, ⟨22, _⟩ => ⟨S1x1x1, .i32⟩
  | .hbm, ⟨23, _⟩ => ⟨S1024x8x1, .i32⟩
  | .hbm, ⟨24, _⟩ => ⟨S1024x8x1, .i1⟩
  | .hbm, ⟨25, _⟩ => ⟨S1024x8x1, .i1⟩
  | .hbm, ⟨26, _⟩ => ⟨S_, .i1⟩
  | .hbm, ⟨27, _⟩ => ⟨S1024x8, .i1⟩
  | .hbm, ⟨28, _⟩ => ⟨S8192x1024x8, .f32⟩
  | .hbm, ⟨29, _⟩ => ⟨S8192x1024x8, .i1⟩
  | .hbm, ⟨30, _⟩ => ⟨S_, .f32⟩
  | .hbm, ⟨31, _⟩ => ⟨S8192x1024x8, .f32⟩
  | .hbm, ⟨32, _⟩ => ⟨S8192x1024x8, .f32⟩
  | .hbm, ⟨33, _⟩ => ⟨S_, .f32⟩
  | .hbm, ⟨34, _⟩ => ⟨S8192x1024, .f32⟩
  | .hbm, ⟨35, _⟩ => ⟨S1024x8192, .f32⟩
  | .hbm, ⟨36, _⟩ => ⟨S1x8192, .f32⟩
  | .hbm, ⟨37, _⟩ => ⟨S1024x8192, .f32⟩
  | .hbm, ⟨38, _⟩ => ⟨S1024x8192, .f32⟩
  | .hbm, ⟨39, _⟩ => ⟨S1024x8x1024, .f32⟩
  | _, _ => ⟨S1024x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_c : Ref sig .tc := ⟨.hbm, 10, rfl⟩
abbrev main_call0_v0 : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_c_1 : Ref sig .tc := ⟨.hbm, 18, rfl⟩
abbrev main_call0_c_2 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_3 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_call0_cst : Ref sig .tc := ⟨.hbm, 30, rfl⟩
abbrev main_call0_v15 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  bcast_S_S1024x8 : S_.BroadcastsInDim S1024x8 (![] : Fin 0 → Fin S1024x8.rank)
  bcast_S1024x8_S1024x8x1_0_1 : S1024x8.BroadcastsInDim S1024x8x1 (![0, 1] : Fin 2 → Fin S1024x8x1.rank)
  bcast_S_S1024x8x1 : S_.BroadcastsInDim S1024x8x1 (![] : Fin 0 → Fin S1024x8x1.rank)
  bcast_S1_S1x1x1_2 : S1.BroadcastsInDim S1x1x1 (![2] : Fin 1 → Fin S1x1x1.rank)
  bcast_S1x1x1_S1024x8x1_0_1_2 : S1x1x1.BroadcastsInDim S1024x8x1 (![0, 1, 2] : Fin 3 → Fin S1024x8x1.rank)
  reducesTo_S1024x8x1_S1024x8_d2 : S1024x8x1.ReducesTo [2] S1024x8
  h_S_ : 0 < S_.numel
  bcast_S1024x8_S8192x1024x8_1_2 : S1024x8.BroadcastsInDim S8192x1024x8 (![1, 2] : Fin 2 → Fin S8192x1024x8.rank)
  bcast_S_S8192x1024x8 : S_.BroadcastsInDim S8192x1024x8 (![] : Fin 0 → Fin S8192x1024x8.rank)
  reducesTo_S8192x1024x8_S8192x1024_d2 : S8192x1024x8.ReducesTo [2] S8192x1024
  transposes_S8192x1024_S1024x8192_1_0 : S8192x1024.Transposes [1, 0] S1024x8192
  bcast_S8192_S1x8192_1 : S8192.BroadcastsInDim S1x8192 (![1] : Fin 1 → Fin S1x8192.rank)
  bcast_S1x8192_S1024x8192_0_1 : S1x8192.BroadcastsInDim S1024x8192 (![0, 1] : Fin 2 → Fin S1024x8192.rank)
  shapeCasts_S1024x8192_S1024x8x1024 : S1024x8192.ShapeCasts S1024x8x1024
  gather_S8192x8192_S1024x8x1_S8192x1024x8_0_1_n_n_1_2_81921_wf : GatherDims.WF S8192x8192 S1024x8x1 S8192x1024x8 [0] [1] [] [1] [] 2 ![8192, 1]

variable [Facts₀]

def gather_S8192x8192_S1024x8x1_S8192x1024x8_0_1_n_n_1_2_81921 : GatherDims S8192x8192 S1024x8x1 S8192x1024x8 where
  offsetDims := [0]
  collapsedSliceDims := [1]
  operandBatchingDims := []
  startIndicesBatchingDims := []
  startIndexMap := [1]
  indexVectorDim := 2
  sliceSizes := ![8192, 1]
  wf := gather_S8192x8192_S1024x8x1_S8192x1024x8_0_1_n_n_1_2_81921_wf

class Facts : Prop extends Facts₀ where

variable [Facts]
-- ==== Proof.Range.lean ====
/-
  The precondition's last conjunct, read back: every token word lies in [0, 1024).

  The precondition is a conjunction of three `all`-reductions to one truth value; the third is over the token table,
  of the entrywise conjunction of the signed comparisons `0 ≤ x` and `x < 1024`. A conjunction that is true has both
  parts true, an `all` that is true is true at every entry, and a 32-bit word that is at least 0 and below 1024 as a
  signed number is below 1024 as an unsigned one.
-/
import proofs.«423940_j240518168593_3_alg».proof.Pre_finite_inputs
import proofs.«423940_j240518168593_3_alg».proof.Proof.Gen.Pre_finite_inputs
import Idealize.ShloMosaic.Lib.ReduceAll
import Idealize.ShloMosaic.Lib.Affine

noncomputable section

namespace Cert.Range

open Idealize.ShloMosaic Cert.Pre_finite_inputs

/-- The shape with no axes has one index. -/
instance : Subsingleton S_.Idx := ⟨fun a b => funext fun d => d.elim0⟩

/-- A word that is nonnegative and below 1024 as a signed number is below 1024 as a natural number. -/
theorem toNat_lt_of_signed (w : BitVec 32) (h0 : (0#32 : BitVec 32).toInt ≤ w.toInt) (h1 : w.toInt < (1024#32 : BitVec 32).toInt) :
    w.toNat < 1024 := by
  have e0 : (0#32 : BitVec 32).toInt = 0 := by decide
  have e1 : (1024#32 : BitVec 32).toInt = 1024 := by decide
  rw [e0] at h0
  rw [e1] at h1
  have hw := w.isLt
  unfold BitVec.toInt at h0 h1
  split at h0 <;> simp at h0 h1 <;> omega

/-- Under the precondition every token word is below 1024. -/
theorem tok_lt {F : FTy → Type} [FloatOps F] (x : IVec S1024x8 32) (W : FVec F S8192x8192 .f32) (b : FVec F S8192 .f32)
    (h : fn (F := F) x W b = fun _ => 1#1) (i : S1024x8.Idx) : (x i).toNat < 1024 := by
  have e := congrFun h (fun a => a.elim0)
  dsimp only [fn] at e
  have e14 := (IntOp.andi_eq_one.1 e).2
  have e13 := Host.reduce_andi_all _ _ _ _ _ e14 i
  obtain ⟨hge, hlt⟩ := IntOp.andi_eq_one.1 e13
  exact toNat_lt_of_signed (x i) (IntOp.cmpi_sge.1 hge) (IntOp.cmpi_slt.1 hlt)

end Cert.Range

end
-- ==== Proof.KPieces.lean ====
/-
  What one grid point leaves in the output block, as values.

  At grid point `(n, t)` the body reads the slab of the one-hot array at context position `t` (a [1, 1024, 1024]
  slice), the weight block and, where `t = 0`, the bias block. Where `t = 0` it first stores the bias block
  broadcast down the rows and reads it back; in both cases it then stores "what the block held, plus the product of
  the slab with the weight block". So the block ends at the update of the broadcast bias (first context position) or
  of what the point before left (the others).
-/
import proofs.«423940_j240518168593_3_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem

namespace Cert.KernelIdeal.KPieces

open Cert.KernelIdeal Cert.KernelIdeal.Gen Idealize.ShloMosaic.ValueIdx

variable {F : FTy → Type} [FloatOps F]

theorem hz2 : (![0, 0] : Fin 2 → Nat) = fun _ => 0 := funext fun a => by fin_cases a <;> rfl

/-- The slab of the one-hot array the body loads at a grid point: its rows at the point's context position. -/
def slab (i : grid0.Coords) (x0 : Vec F S8x1024x1024 .bf16) : Vec F S1x1024x1024 .bf16 :=
  View.ld x0 (Rect.unit (s := S8x1024x1024) (k0_off1 i) S1x1024x1024.size (k0_off1_inb i))

/-- Entry `(0, b, k)` of the slab at a point of context position `t` is entry `(t, b, k)` of the one-hot array. -/
theorem slab_apply (i : grid0.Coords) (t : Fin 8) (ht : (i 1).val = t.val) (x0 : Vec F S8x1024x1024 .bf16) (b k : Fin 1024) :
    slab i x0 (ix3 (0 : Fin 1) b k) = x0 (ix3 t b k) := by
  unfold slab
  show x0 _ = x0 _
  refine congrArg x0 (funext fun a => Fin.ext ?_)
  have h32 : (i 1).val % 4294967296 = (i 1).val := Nat.mod_eq_of_lt (by rw [ht]; have := t.isLt; omega)
  match a with
  | ⟨0, _⟩ => show (BitVec.ofNat 32 (i 1).val).toNat + 1 * 0 = t.val; rw [BitVec.toNat_ofNat]; omega
  | ⟨1, _⟩ => show 0 + 1 * b.val = b.val; omega
  | ⟨2, _⟩ => show 0 + 1 * k.val = k.val; omega

/-- At a point that is not at the first context position the block, holding `xo3`, ends at its update. -/
theorem out_B (c : Dev nD) (i : grid0.Coords) (arg2 : Memref sig .tc .vmem S8x1024x1024 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (hc0 : ¬cond0_0 i)
    (x0 : Vec F S8x1024x1024 .bf16) (x1 : Vec F S1024x1024 .f32) (x2 : Vec F S1x1024 .f32) (xo3 : Vec F S1024x1024 .f32) :
    out0_B_3 c i arg2 harg2 arg3 harg3 arg4 harg4 arg5 harg5 hc0 x0 x1 x2 xo3 = k0_pay2 (slab i x0) x1 xo3 := by
  unfold out0_B_3
  rw [View.read_writes_eq_canon _ _ _ (cover0_B_3 c i arg2 harg2 arg3 harg3 arg4 harg4 arg5 harg5 hc0 x0 x1 x2 xo3)]
  unfold kernelRun0_B
  dsimp only
  sl_unfold_words
  rw [View.canon_unit_zero hz2]
  simp only [View.readAt_eq_ld, harg2.read_unread, harg3.read_unread, harg5.read_unread, View.ld_unit_zero (S := S1024x1024) hz2]
  rfl

/-- At a point at the first context position the block ends at the update of the bias block broadcast down the rows. -/
theorem out_A (c : Dev nD) (i : grid0.Coords) (arg2 : Memref sig .tc .vmem S8x1024x1024 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S1024x1024 .f32) (harg5 : arg5.IsWhole) (hc0 : cond0_0 i)
    (x0 : Vec F S8x1024x1024 .bf16) (x1 : Vec F S1024x1024 .f32) (x2 : Vec F S1x1024 .f32) :
    out0_A_3 c i arg2 harg2 arg3 harg3 arg4 harg4 arg5 harg5 hc0 x0 x1 x2 = k0_pay2 (slab i x0) x1 (k0_pay1 x2) := by
  unfold out0_A_3
  rw [View.read_writes_eq_canon _ _ _ (cover0_A_3 c i arg2 harg2 arg3 harg3 arg4 harg4 arg5 harg5 hc0 x0 x1 x2)]
  unfold kernelRun0_A
  dsimp only
  sl_unfold_words
  rw [View.canon_cons_unit_zero (S := S1024x1024) hz2, View.readCov_unit_zero (S := S1024x1024) _ hz2]
  simp only [View.readAt_eq_ld, harg2.read_unread, harg3.read_unread, harg4.read_unread, View.ld_unit_zero (S := S1024x1024) hz2,
    View.ld_unit_zero (S := S1x1024) hz2]
  rfl

end Cert.KernelIdeal.KPieces

end
-- ==== Proof.KBlocks.lean ====
/-
  The input blocks of a grid point, read off the arrays.

  The grid has 64 points; point `p` is output tile `n = p / 8` at context position `t = p % 8`. The one-hot window's
  block is the whole [8, 1024, 1024] array at every point; the weight window's block is the 1024 × 1024 tile
  `(n, t)` of `W`: entry `(q, k)` is `W[n · 1024 + q, t · 1024 + k]`; the bias window's block is tile `n` of the
  bias row: entry `(0, q)` is entry `(0, n · 1024 + q)`. The host lines before the region write none of the
  argument arrays, so `W` is read as launched.
-/
import proofs.«423940_j240518168593_3_alg».proof.Proof.Gen.KernelIdeal.Frame.Runs
import Idealize.ShloMosaic.Lib.Pipeline.Value
import Idealize.ShloMosaic.Lib.ValueIdx

noncomputable section

open Idealize.ShloMosaic Idealize.ShloMosaic.TcCoe Idealize.SL.Sem

namespace Cert.KernelIdeal.KBlocks

open Cert.KernelIdeal Cert.KernelIdeal.Gen Idealize.ShloMosaic.ValueIdx

variable {F : FTy → Type} [FloatOps F]
variable (m : (ℓ : Loc nD τ sig) → Buf (Elt F) ℓ)

/-- The weight matrix as the program's second argument holds it on core `c`. -/
abbrev warr (c : Dev nD) : FVec F S8192x8192 .f32 := m ((c : Thread nD τ).loc main_arg1)

/-- The three input blocks of point `p`, at their literal types. -/
abbrev ohblk (c : Dev nD) (p : Fin cfg0.N) : Vec F S8x1024x1024 .bf16 := iblk m c 0 p
abbrev wblk (c : Dev nD) (p : Fin cfg0.N) : Vec F S1024x1024 .f32 := iblk m c 1 p
abbrev bblk (c : Dev nD) (p : Fin cfg0.N) : Vec F S1x1024 .f32 := iblk m c 2 p

/-- The windows' block indices over the grid: the one-hot window never moves; the weight window is at tile
    `(p / 8, p % 8)`; the bias and the output windows at tile `(0, p / 8)`. -/
theorem idx_facts : ∀ p : Fin cfg0.N,
    (win0_0.index p 0 = 0 ∧ win0_0.index p 1 = 0 ∧ win0_0.index p 2 = 0)
    ∧ (win0_1.index p 0 = p.val / 8 ∧ win0_1.index p 1 = p.val % 8)
    ∧ (win0_2.index p 0 = 0 ∧ win0_2.index p 1 = p.val / 8)
    ∧ (win0_3.index p 0 = 0 ∧ win0_3.index p 1 = p.val / 8)
    ∧ ((grid0.coords p 1).val = p.val % 8) :=
  (by decide +kernel : ∀ p : Fin grid0.N,
    (win0_0.index p 0 = 0 ∧ win0_0.index p 1 = 0 ∧ win0_0.index p 2 = 0)
    ∧ (win0_1.index p 0 = p.val / 8 ∧ win0_1.index p 1 = p.val % 8)
    ∧ (win0_2.index p 0 = 0 ∧ win0_2.index p 1 = p.val / 8)
    ∧ (win0_3.index p 0 = 0 ∧ win0_3.index p 1 = p.val / 8)
    ∧ ((grid0.coords p 1).val = p.val % 8))

theorem ohblk_apply (c : Dev nD) (p : Fin cfg0.N) (t : Fin 8) (b k : Fin 1024) :
    ohblk m c p (ix3 t b k) = (V m c main_v2 : FVec F S8x1024x1024 .bf16) (ix3 t b k) := by
  show ((cfg0.win 0).blk p).view.read (Elt F) (V m c (Pipeline.arrRef spec0 0)) (ix3 t b k) = _
  rw [View.read_apply]
  show V m c main_v2 _ = V m c main_v2 _
  refine congrArg (V m c main_v2) (funext fun a => Fin.ext ?_)
  obtain ⟨⟨h0, h1, h2⟩, -⟩ := idx_facts p
  match a with
  | ⟨0, _⟩ => show win0_0.index p 0 * 8 + 1 * t.val = t.val; rw [h0]; omega
  | ⟨1, _⟩ => show win0_0.index p 1 * 1024 + 1 * b.val = b.val; rw [h1]; omega
  | ⟨2, _⟩ => show win0_0.index p 2 * 1024 + 1 * k.val = k.val; rw [h2]; omega

theorem wblk_apply (c : Dev nD) (p : Fin cfg0.N) (q k : Fin 1024) (R C : Fin 8192)
    (hR : R.val = p.val / 8 * 1024 + q.val) (hC : C.val = p.val % 8 * 1024 + k.val) :
    wblk m c p (ix2 q k) = warr m c (ix2 R C) := by
  have e : wblk m c p (ix2 q k) = (V m c main_arg1 : FVec F S8192x8192 .f32) (ix2 R C) := by
    show ((cfg0.win 1).blk p).view.read (Elt F) (V m c (Pipeline.arrRef spec0 1)) (ix2 q k) = _
    rw [View.read_apply]
    show V m c main_arg1 _ = V m c main_arg1 _
    refine congrArg (V m c main_arg1) (funext fun a => Fin.ext ?_)
    obtain ⟨-, ⟨h0, h1⟩, -⟩ := idx_facts p
    match a with
    | ⟨0, _⟩ => show win0_1.index p 0 * 1024 + 1 * q.val = R.val; rw [h0, hR]; omega
    | ⟨1, _⟩ => show win0_1.index p 1 * 1024 + 1 * k.val = C.val; rw [h1, hC]; omega
  exact e.trans (congrFun (V_main_arg1 m c) _)

theorem bblk_apply (c : Dev nD) (p : Fin cfg0.N) (q : Fin 1024) (D : Fin 8192) (hD : D.val = p.val / 8 * 1024 + q.val) :
    bblk m c p (ix2 (0 : Fin 1) q) = (V m c main_v3 : FVec F S1x8192 .f32) (ix2 (0 : Fin 1) D) := by
  show ((cfg0.win 2).blk p).view.read (Elt F) (V m c (Pipeline.arrRef spec0 2)) (ix2 (0 : Fin 1) q) = _
  rw [View.read_apply]
  show V m c main_v3 _ = V m c main_v3 _
  refine congrArg (V m c main_v3) (funext fun a => Fin.ext ?_)
  obtain ⟨-, -, ⟨h0, h1⟩, -⟩ := idx_facts p
  match a with
  | ⟨0, _⟩ => show win0_2.index p 0 * 1 + 1 * 0 = 0; rw [h0]
  | ⟨1, _⟩ => show win0_2.index p 1 * 1024 + 1 * q.val = D.val; rw [h1, hD]; omega

end Cert.KernelIdeal.KBlocks

end
-- ==== Proof.KPay.lean ====
/-
  The two stored values of the kernel body, read at an index, over the extended reals.

  The first store (taken only at the first context position) writes the bias block broadcast down the rows: entry
  `(p, q)` is the bias block's entry `q`. The second store writes the output block's previous contents plus the
  product of the one-hot block with the weight block contracted over both operands' second axis: entry `(p, q)` is
  `old (p, q) + Σ_k onehot (p, k) · w (q, k)` (a change of float format is the identity over the extended reals, and a
  matrix product into a zero accumulator is the plain sum).
-/
import proofs.«423940_j240518168593_3_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.KPay

open Cert.KernelIdeal Cert.KernelIdeal.Gen
open Idealize.ShloMosaic Idealize.ShloMosaic.ValueIdx

/-! ## The first store: one row broadcast down the block -/

theorem pay1_apply (v13 : Vec Ideal S1x1024 .f32) (p q : Fin 1024) :
    k0_pay1 (F := Ideal) v13 (ix2 p q) = v13 (ix2 (0 : Fin 1) q) := by
  unfold k0_pay1
  rw [shapeCast_self, shapeCast_self]
  exact broadcastTo_1b_ab_apply v13 _ p q

/-! ## The product's index maps, coordinate by coordinate

  The dimension numbers contract axis 1 of both operands and keep axis 0 of each: at output index `(p, q)` and
  contraction position `k` the left operand is read at `(p, k)` and the right one at `(q, k)`. -/

/-- The product's dimension numbers. -/
abbrev D : DotDims S1024x1024 S1024x1024 S1024x1024 := dot_S1024x1024_S1024x1024_S1024x1024_1_1_0_0_n_n

theorem lhs_0 (j : S1024x1024.Idx) (k : D.contr.Idx) : (D.lhsIdx j k 0 : ℕ) = j 0 := by
  simp [DotDims.lhsIdx, D, dot_S1024x1024_S1024x1024_S1024x1024_1_1_0_0_n_n]; rfl
theorem lhs_1 (j : S1024x1024.Idx) (k : D.contr.Idx) : (D.lhsIdx j k 1 : ℕ) = k ⟨0, by decide⟩ :=
  D.lhsIdx_val_of_single (cl := 1) rfl j k
theorem rhs_0 (j : S1024x1024.Idx) (k : D.contr.Idx) : (D.rhsIdx j k 0 : ℕ) = j 1 := by
  simp [DotDims.rhsIdx, D, dot_S1024x1024_S1024x1024_S1024x1024_1_1_0_0_n_n]; rfl
theorem rhs_1 (j : S1024x1024.Idx) (k : D.contr.Idx) : (D.rhsIdx j k 1 : ℕ) = k ⟨0, by decide⟩ :=
  D.rhsIdx_val_of_single (cr := 1) rfl j k

/-- The product into a zero accumulator, read at `(p, q)`: the sum over the contracted coordinate of the left operand's
    row `p` against the right operand's row `q`. -/
theorem matmul_zero_apply (A B : FVec Ideal S1024x1024 .bf16) (p q : Fin 1024) :
    matmul D none A B (constant (F := Ideal) S1024x1024 .f32 0x00000000#32) (ix2 p q)
      = ∑ k : Fin 1024, A (ix2 p k) * B (ix2 q k) := by
  show FloatOps.matmul D none A B (constant (F := Ideal) S1024x1024 .f32 0x00000000#32) (ix2 p q) = _
  rw [Ideal.matmul_constant_zero_apply, ← Equiv.sum_comp (contrEquiv1 D 1024 rfl rfl).symm]
  refine Finset.sum_congr rfl fun c _ => ?_
  have c2 := contrEquiv1_symm_val D 1024 rfl rfl c
  have l2 : D.lhsIdx (ix2 p q) ((contrEquiv1 D 1024 rfl rfl).symm c) = ix2 p c := by
    funext ax; apply Fin.ext
    match ax with
    | ⟨0, _⟩ => exact lhs_0 _ _
    | ⟨1, _⟩ => exact (lhs_1 _ _).trans c2
  have r2 : D.rhsIdx (ix2 p q) ((contrEquiv1 D 1024 rfl rfl).symm c) = ix2 q c := by
    funext ax; apply Fin.ext
    match ax with
    | ⟨0, _⟩ => exact rhs_0 _ _
    | ⟨1, _⟩ => exact (rhs_1 _ _).trans c2
  rw [l2, r2]

/-! ## The second store: the old block plus the product -/

theorem pay2_apply (v1 : Vec Ideal S1x1024x1024 .bf16) (v3 v9 : Vec Ideal S1024x1024 .f32) (p q : Fin 1024) :
    k0_pay2 (F := Ideal) v1 v3 v9 (ix2 p q)
      = v9 (ix2 p q) + ∑ k : Fin 1024, v1 (ix3 (0 : Fin 1) p k) * v3 (ix2 q k) := by
  unfold k0_pay2
  rw [addf_apply, shapeCast_self]
  refine congrArg (v9 (ix2 p q) + ·) ?_
  refine (matmul_zero_apply _ _ p q).trans ?_
  refine Finset.sum_congr rfl fun k _ => ?_
  rw [shapeCast_1ab_ab_apply, truncf_apply]

end Cert.KernelIdeal.KPay

end
-- ==== Proof.KHost.lean ====
/-
  What the kernel's region finds in the two arrays the host lines before it compute.

  The one-hot array [8, 1024, 1024]: the token table is clamped to [0, 1023], compared entry by entry with the
  positions 0 … 1023 of a new last axis, the truth value converted to a float (1 or 0), and the first two axes
  exchanged. So entry `(t, b, v)` is 1 when the (clamped) token of row `b` at context position `t` is `v`, else 0;
  for a token already in [0, 1024) the clamp is the identity. The bias row [1, 8192] is the bias vector re-read
  row-major: entry `(0, d)` is the bias entry `d`.
-/
import proofs.«423940_j240518168593_3_alg».proof.Proof.Gen.KernelIdeal.Frame.Runs
import Idealize.ShloMosaic.Lib.ValueIdx
import Idealize.ShloMosaic.Lib.Pipeline.Value
import Idealize.ShloMosaic.Lib.ValueLayout
import Idealize.ShloMosaic.Lib.StableHlo.Run
import Idealize.ShloMosaic.Lib.StableHlo.Predicate

noncomputable section

namespace Cert.KernelIdeal.KHost

open Cert.KernelIdeal Cert.KernelIdeal.Gen
open Idealize.ShloMosaic Idealize.ShloMosaic.TcCoe Idealize.ShloMosaic.ValueIdx Idealize.SL.Sem

/-! ## The host lines as one function of the token table -/

/-- The token table clamped entry by entry to [0, 1023]: the larger of 0 and the token, then the smaller of 1023 and
    that. -/
def clipTerm (x : IVec S1024x8 32) : IVec S1024x8 32 :=
  minsi (broadcastInDim S1024x8 ![] bcast_S_S1024x8 (id (constantI S_ 32 1023#32)))
    (maxsi (broadcastInDim S1024x8 ![] bcast_S_S1024x8 (id (constantI S_ 32 0#32))) x)

/-- The one-hot array as the host lines compute it from the token table. -/
def onehotTerm (x : IVec S1024x8 32) : FVec Ideal S8x1024x1024 .bf16 :=
  transpose S8x1024x1024 [1, 0, 2]
    (uitofp (F := Ideal) .bf16
      (cmpi .eq
        (broadcastInDim S1024x8x1024 ![0, 1, 2] bcast_S1024x8x1_S1024x8x1024_0_1_2
          (broadcastInDim S1024x8x1 ![0, 1] bcast_S1024x8_S1024x8x1_0_1 (clipTerm x)))
        (broadcastInDim S1024x8x1024 ![0, 1, 2] bcast_S1x1x1024_S1024x8x1024_0_1_2 (iotaInDim S1x1x1024 32 2))))
    transposes_S1024x8x1024_S8x1024x1024_1_0_2

variable (m : (ℓ : Loc nD τ sig) → Buf (Elt Ideal) ℓ)

/-- The token table as the program's first argument holds it on core `c`. -/
abbrev xarr (c : Dev nD) : IVec S1024x8 32 := m ((c : Thread nD τ).loc main_arg0)
/-- The bias vector as the program's third argument holds it on core `c`. -/
abbrev barr (c : Dev nD) : FVec Ideal S8192 .f32 := m ((c : Thread nD τ).loc main_arg2)

theorem V_main_v3 (c : Dev nD) :
    (V m c main_v3 : FVec Ideal S1x8192 .f32) = shapeCast S1x8192 (barr m c) shapeCasts_S8192_S1x8192 := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

theorem V_main_v2 (c : Dev nD) :
    (V m c main_v2 : FVec Ideal S8x1024x1024 .bf16) = onehotTerm (xarr m c) := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-! ## Words -/

/-- A word below 1024 is its own clamp to [0, 1023]. -/
theorem clamp_word (w : BitVec 32) (hw : w.toNat < 1024) : IntOp.minsi 1023#32 (IntOp.maxsi 0#32 w) = w := by
  have hti : w.toInt = w.toNat := StableHlo.Predicate.toInt_eq_toNat_of_lt (by omega)
  have h0 : (0#32 : BitVec 32).toInt = 0 := by decide
  have h1 : (1023#32 : BitVec 32).toInt = 1023 := by decide
  have hmax : IntOp.maxsi 0#32 w = w := by
    unfold IntOp.maxsi
    rw [if_neg]
    simp only [BitVec.slt, hti, h0, decide_eq_true_eq]; omega
  rw [hmax]
  unfold IntOp.minsi
  rw [if_neg]
  simp only [BitVec.slt, hti, h1, decide_eq_true_eq]; omega

/-- A word is the word of a position below 1024 exactly when its value is that position. -/
theorem word_eq_iff (w : BitVec 32) (v : Fin 1024) : w = BitVec.ofNat 32 v.val ↔ w.toNat = v.val := by
  have hv : v.val % 2 ^ 32 = v.val := Nat.mod_eq_of_lt (by have := v.isLt; omega)
  constructor
  · intro h; rw [h, BitVec.toNat_ofNat, hv]
  · intro h; apply BitVec.eq_of_toNat_eq; rw [BitVec.toNat_ofNat, hv, h]

/-- The truth value of a word equality, converted to a float over the extended reals, is 1 or 0. -/
theorem uitofp_cmpi_eq (a b : BitVec 32) :
    FloatOps.uitofp (F := Ideal) .bf16 (IntOp.cmpi .eq a b) = if a = b then (1 : EReal) else 0 := by
  show (((IntOp.cmpi .eq a b).toNat : ℝ) : EReal) = _
  by_cases h : a = b
  · rw [if_pos h, StableHlo.Predicate.cmpi_eq_iff.mpr h]; simp
  · rw [if_neg h, eq_zero_of_ne_one (fun h1 => h (StableHlo.Predicate.cmpi_eq_iff.mp h1))]; simp

/-! ## The one-hot array at an index -/

/-- The clamped table at `(b, t)`, for a token below 1024, is the token. -/
theorem clipTerm_apply (x : IVec S1024x8 32) (b : Fin 1024) (t : Fin 8) (hx : (x (ix2 b t)).toNat < 1024) :
    clipTerm x (ix2 b t) = x (ix2 b t) :=
  clamp_word _ hx

theorem onehotTerm_apply (x : IVec S1024x8 32) (hx : ∀ i, (x i).toNat < 1024) (t : Fin 8) (b v : Fin 1024) :
    onehotTerm x (ix3 t b v) = if (x (ix2 b t)).toNat = v.val then (1 : EReal) else 0 := by
  unfold onehotTerm
  refine (transpose_apply _ _ _ (ix3 t b v) (ix3 b t v)
    fun a => match a with | ⟨0, _⟩ => rfl | ⟨1, _⟩ => rfl | ⟨2, _⟩ => rfl).trans ?_
  refine (uitofp_cmpi_eq _ _).trans ?_
  have eA : broadcastInDim S1024x8x1024 ![0, 1, 2] bcast_S1024x8x1_S1024x8x1024_0_1_2
      (broadcastInDim S1024x8x1 ![0, 1] bcast_S1024x8_S1024x8x1_0_1 (clipTerm x)) (ix3 b t v) = x (ix2 b t) := by
    refine (broadcastInDim_apply _ _ _ (ix3 b t v) (ix3 b t (0 : Fin 1))
      fun a => match a with | ⟨0, _⟩ => rfl | ⟨1, _⟩ => rfl | ⟨2, _⟩ => rfl).trans ?_
    refine (broadcastInDim_apply _ _ _ (ix3 b t (0 : Fin 1)) (ix2 b t)
      fun a => match a with | ⟨0, _⟩ => rfl | ⟨1, _⟩ => rfl).trans ?_
    exact clipTerm_apply x b t (hx _)
  have eB : broadcastInDim S1024x8x1024 ![0, 1, 2] bcast_S1x1x1024_S1024x8x1024_0_1_2 (iotaInDim S1x1x1024 32 2) (ix3 b t v)
      = BitVec.ofNat 32 v.val := by
    refine (broadcastInDim_apply _ _ _ (ix3 b t v) (ix3 (0 : Fin 1) (0 : Fin 1) v)
      fun a => match a with | ⟨0, _⟩ => rfl | ⟨1, _⟩ => rfl | ⟨2, _⟩ => rfl).trans ?_
    rfl
  rw [eA, eB]
  exact if_congr (word_eq_iff _ v) rfl rfl

/-! ## What the region finds -/

theorem onehot_apply (c : Dev nD) (hx : ∀ i, (xarr m c i).toNat < 1024) (t : Fin 8) (b v : Fin 1024) :
    (V m c main_v2 : FVec Ideal S8x1024x1024 .bf16) (ix3 t b v)
      = if (xarr m c (ix2 b t)).toNat = v.val then (1 : EReal) else 0 := by
  rw [V_main_v2]
  exact onehotTerm_apply (xarr m c) hx t b v

theorem bias_apply (c : Dev nD) (d : Fin 8192) :
    (V m c main_v3 : FVec Ideal S1x8192 .f32) (ix2 (0 : Fin 1) d) = barr m c (ix1 d) := by
  rw [V_main_v3]
  exact shapeCast_a_1a_apply (barr m c) _ (0 : Fin 1) d

end Cert.KernelIdeal.KHost

end
-- ==== Proof.Spec.lean ====
/-
  What both programs compute, as one function of the three argument arrays.

  The tokens `x[b, s]` (row `b` of 1024, context position `s` of 8) are words in `[0, 1024)`. Context position `s`
  with token `w` selects column `s · 1024 + w` of the 8192 × 8192 weight matrix `W` (the flattened one-hot
  coordinate), and output feature `d` of row `b` is

      H b d  =  bias[d] + Σ_{s < 8} W[d, s · 1024 + x[b, s]].

  The result array is `H` laid out as [1024, 8192] (`G2`) and then re-read row-major as [1024, 8, 1024] (`G3`):
  feature `d = t · 1024 + v` sits at `(b, t, v)`. Every coordinate below is read modulo its extent, so that the
  functions are total and carry no bound obligations; on in-range coordinates the reductions are the identity.
-/
import Idealize.ShloMosaic.PureOps
import Idealize.ShloMosaic.Lib.ValueIdx
import Idealize.ShloMosaic.Lib.Pipeline.Value

noncomputable section

namespace Cert.Spec

open Idealize.ShloMosaic Idealize.ShloMosaic.ValueIdx

/-- A natural number as a row index of the token table. -/
def fin1024 (b : ℕ) : Fin 1024 := ⟨b % 1024, Nat.mod_lt _ (by norm_num)⟩
/-- A natural number as a context position. -/
def fin8 (s : ℕ) : Fin 8 := ⟨s % 8, Nat.mod_lt _ (by norm_num)⟩
/-- A natural number as a feature index (a row or a column of `W`, an entry of the bias). -/
def fin8192 (d : ℕ) : Fin 8192 := ⟨d % 8192, Nat.mod_lt _ (by norm_num)⟩

/-- The token word of row `b` at context position `s`. -/
def tok (x : IVec ⟨2, ![1024, 8]⟩ 32) (b s : ℕ) : BitVec 32 := x (ix2 (fin1024 b) (fin8 s))

/-- The column of `W` that context position `s` with token word `w` selects: `s · 1024 + w`. -/
def col (s : ℕ) (w : BitVec 32) : Fin 8192 := ⟨(s % 8) * 1024 + w.toNat % 1024, by omega⟩

/-- Context position `s`'s contribution to feature `d` of row `b`: the selected entry of row `d` of `W`. -/
def term (x : IVec ⟨2, ![1024, 8]⟩ 32) (W : FVec Ideal ⟨2, ![8192, 8192]⟩ .f32) (b d s : ℕ) : EReal :=
  W (ix2 (fin8192 d) (col s (tok x b s)))

/-- Feature `d` of row `b`: the bias entry plus the eight selected weight entries. -/
def H (x : IVec ⟨2, ![1024, 8]⟩ 32) (W : FVec Ideal ⟨2, ![8192, 8192]⟩ .f32) (bias : FVec Ideal ⟨1, ![8192]⟩ .f32)
    (b d : ℕ) : EReal :=
  bias (ix1 (fin8192 d)) + ∑ s ∈ Finset.range 8, term x W b d s

/-- The result before the final re-layout: [1024, 8192]. -/
def G2 (x : IVec ⟨2, ![1024, 8]⟩ 32) (W : FVec Ideal ⟨2, ![8192, 8192]⟩ .f32) (bias : FVec Ideal ⟨1, ![8192]⟩ .f32) :
    FVec Ideal ⟨2, ![1024, 8192]⟩ .f32 :=
  fun j => H x W bias (j 0).val (j 1).val

/-- The result: [1024, 8, 1024], feature `t · 1024 + v` at `(b, t, v)`. -/
def G3 (x : IVec ⟨2, ![1024, 8]⟩ 32) (W : FVec Ideal ⟨2, ![8192, 8192]⟩ .f32) (bias : FVec Ideal ⟨1, ![8192]⟩ .f32) :
    FVec Ideal ⟨3, ![1024, 8, 1024]⟩ .f32 :=
  fun i => H x W bias (i 0).val ((i 1).val * 1024 + (i 2).val)

/-- Re-reading the [1024, 8192] result row-major as [1024, 8, 1024] gives the [1024, 8, 1024] result: position
    `(b, t, v)` is row-major position `b · 8192 + t · 1024 + v`, which is `(b, t · 1024 + v)`. -/
theorem shapeCast_G2 (x : IVec ⟨2, ![1024, 8]⟩ 32) (W : FVec Ideal ⟨2, ![8192, 8192]⟩ .f32) (bias : FVec Ideal ⟨1, ![8192]⟩ .f32)
    (h : (⟨2, ![1024, 8192]⟩ : Shape).ShapeCasts ⟨3, ![1024, 8, 1024]⟩) :
    shapeCast (⟨3, ![1024, 8, 1024]⟩ : Shape) (G2 x W bias) h = G3 x W bias := by
  funext i
  obtain ⟨b, t, v, rfl⟩ : ∃ (b : Fin 1024) (t : Fin 8) (v : Fin 1024), i = ix3 b t v := ⟨i 0, i 1, i 2, eq_ix3 i⟩
  have hd : t.val * 1024 + v.val < 8192 := by have := t.isLt; have := v.isLt; omega
  rw [shapeCast_apply (G2 x W bias) h (ix3 b t v) (ix2 b (⟨t.val * 1024 + v.val, hd⟩ : Fin 8192)) (by
    rw [Shape.rowMajor_val_two, Shape.rowMajor_val_three]
    show b.val * 8192 + (t.val * 1024 + v.val) = (b.val * 8 + t.val) * 1024 + v.val
    omega)]
  rfl

end Cert.Spec

end
-- ==== Proof.KInv.lean ====
/-
  The output block point by point, and the array the region leaves.

  Within output tile `n` the eight points `p = 8n + t` accumulate into one resident block. With every token in
  [0, 1024), the one-hot slab at context position `t` has, in row `b`, a single 1 at column `x[b, t]`, so its product
  with the weight tile `(n, t)` contracted over the columns is, at `(b, q)`, the one entry
  `W[n · 1024 + q, t · 1024 + x[b, t]]` (a sum with one nonzero term: `0 · w = 0` and `1 · w = w` hold for every
  extended real `w`). Hence after point `p` the block holds, at `(b, q)`,

      bias[n · 1024 + q] + Σ_{s ≤ t} W[n · 1024 + q, s · 1024 + x[b, s]]

  by induction on `p`: at `t = 0` the block is reset to the bias and updated once, at `t > 0` the block of the point
  before is updated. The block is written back at `t = 7`, where the sum is complete; tile `n` of the [1024, 8192]
  array is written only then, and the eight tiles cover the array.
-/
import proofs.«423940_j240518168593_3_alg».proof.Proof.KPieces
import proofs.«423940_j240518168593_3_alg».proof.Proof.KBlocks
import proofs.«423940_j240518168593_3_alg».proof.Proof.KPay
import proofs.«423940_j240518168593_3_alg».proof.Proof.KHost
import proofs.«423940_j240518168593_3_alg».proof.Proof.Spec
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.KInv

open Cert.KernelIdeal Cert.KernelIdeal.Gen Idealize.ShloMosaic.ValueIdx
open Cert.KernelIdeal.KPieces Cert.KernelIdeal.KBlocks Cert.KernelIdeal.KHost Cert.KernelIdeal.KPay
open Cert.Spec (term H G2 fin8192 fin1024 fin8 tok col)

variable (m : (ℓ : Loc nD τ sig) → Buf (Elt Ideal) ℓ)

/-- A sum against a row with a single 1 picks one term. -/
theorem onehot_sum (a : ℕ) (ha : a < 1024) (f : Fin 1024 → EReal) :
    ∑ k : Fin 1024, (if a = k.val then (1 : EReal) else 0) * f k = f ⟨a, ha⟩ := by
  rw [Finset.sum_eq_single (⟨a, ha⟩ : Fin 1024)]
  · rw [if_pos rfl, one_mul]
  · intro k _ hk
    rw [if_neg (fun h => hk (Fin.ext h.symm)), zero_mul]
  · intro h; exact absurd (Finset.mem_univ _) h

/-- The specification's term at in-range coordinates: the entry of `W` at row `n · 1024 + q`, column `t · 1024 + x[b, t]`. -/
theorem term_eq (x : IVec S1024x8 32) (W : FVec Ideal S8192x8192 .f32) (b q : Fin 1024) (n t : ℕ) (hn : n < 8) (ht : t < 8)
    (hx : (x (ix2 b (⟨t, ht⟩ : Fin 8))).toNat < 1024) (R C : Fin 8192)
    (hR : R.val = n * 1024 + q.val) (hC : C.val = t * 1024 + (x (ix2 b (⟨t, ht⟩ : Fin 8))).toNat) :
    term x W b.val (n * 1024 + q.val) t = W (ix2 R C) := by
  unfold Cert.Spec.term
  have e1 : fin8192 (n * 1024 + q.val) = R := Fin.ext (by
    show (n * 1024 + q.val) % 8192 = R.val
    have := q.isLt; rw [hR]; exact Nat.mod_eq_of_lt (by omega))
  have e2 : tok x b.val t = x (ix2 b (⟨t, ht⟩ : Fin 8)) := by
    unfold Cert.Spec.tok
    have eb : fin1024 b.val = b := Fin.ext (Nat.mod_eq_of_lt b.isLt)
    have et : fin8 t = (⟨t, ht⟩ : Fin 8) := Fin.ext (Nat.mod_eq_of_lt ht)
    rw [eb, et]
  have e3 : col t (x (ix2 b (⟨t, ht⟩ : Fin 8))) = C := Fin.ext (by
    show t % 8 * 1024 + (x (ix2 b (⟨t, ht⟩ : Fin 8))).toNat % 1024 = C.val
    rw [Nat.mod_eq_of_lt ht, Nat.mod_eq_of_lt hx, hC])
  rw [e1, e2, e3]

/-- Point `p`'s update of a block holding `old`: at `(b, q)` it adds the term of context position `p % 8` for feature
    `(p / 8) · 1024 + q`. -/
theorem upd_apply (c : Dev nD) (hx : ∀ i, (xarr m c i).toNat < 1024) (p : Fin cfg0.N) (old : Vec Ideal S1024x1024 .f32)
    (b q : Fin 1024) :
    k0_pay2 (F := Ideal) (slab (grid0.coords p) (ohblk m c p)) (wblk m c p) old (ix2 b q)
      = old (ix2 b q) + term (xarr m c) (warr m c) b.val (p.val / 8 * 1024 + q.val) (p.val % 8) := by
  have hN : p.val < 64 := lt_of_lt_of_eq p.isLt (show cfg0.N = 64 from N_0)
  have ht : p.val % 8 < 8 := Nat.mod_lt _ (by norm_num)
  have hn : p.val / 8 < 8 := by omega
  have hcoord : (grid0.coords p 1).val = p.val % 8 := (idx_facts p).2.2.2.2
  have hxa := hx (ix2 b (⟨p.val % 8, ht⟩ : Fin 8))
  have hR : p.val / 8 * 1024 + q.val < 8192 := by have := q.isLt; omega
  have hC : p.val % 8 * 1024 + (xarr m c (ix2 b (⟨p.val % 8, ht⟩ : Fin 8))).toNat < 8192 := by omega
  rw [pay2_apply]
  refine congrArg (old (ix2 b q) + ·) ?_
  rw [term_eq (xarr m c) (warr m c) b q (p.val / 8) (p.val % 8) hn ht hxa ⟨_, hR⟩ ⟨_, hC⟩ rfl rfl]
  have hsum : ∀ k : Fin 1024,
      slab (grid0.coords p) (ohblk m c p) (ix3 (0 : Fin 1) b k) * wblk m c p (ix2 q k)
        = (if (xarr m c (ix2 b (⟨p.val % 8, ht⟩ : Fin 8))).toNat = k.val then (1 : EReal) else 0)
            * warr m c (ix2 (⟨_, hR⟩ : Fin 8192) (⟨p.val % 8 * 1024 + k.val, by have := k.isLt; omega⟩ : Fin 8192)) := by
    intro k
    rw [slab_apply (grid0.coords p) (⟨p.val % 8, ht⟩ : Fin 8) hcoord, ohblk_apply, onehot_apply m c hx,
      wblk_apply m c p q k ⟨_, hR⟩ ⟨p.val % 8 * 1024 + k.val, by have := k.isLt; omega⟩ rfl rfl]
  rw [Finset.sum_congr rfl (fun k _ => hsum k)]
  exact onehot_sum _ hxa (fun k => warr m c (ix2 (⟨_, hR⟩ : Fin 8192) (⟨p.val % 8 * 1024 + k.val, by have := k.isLt; omega⟩ : Fin 8192)))

/-- What the output block holds after point `p`: at `(b, q)` the bias entry of feature `(p / 8) · 1024 + q` plus the terms
    of the context positions up to `p % 8`. -/
def acc (c : Dev nD) (p : ℕ) : Vec Ideal S1024x1024 .f32 := fun j =>
  barr m c (ix1 (fin8192 (p / 8 * 1024 + (j 1).val)))
    + ∑ s ∈ Finset.range (p % 8 + 1), term (xarr m c) (warr m c) (j 0).val (p / 8 * 1024 + (j 1).val) s

/-- The bias block broadcast down the rows, at `(b, q)`, is the bias entry of feature `(p / 8) · 1024 + q`. -/
theorem bias_row_apply (c : Dev nD) (p : Fin cfg0.N) (b q : Fin 1024) :
    k0_pay1 (F := Ideal) (bblk m c p) (ix2 b q) = barr m c (ix1 (fin8192 (p.val / 8 * 1024 + q.val))) := by
  have hN : p.val < 64 := lt_of_lt_of_eq p.isLt (show cfg0.N = 64 from N_0)
  have hD : p.val / 8 * 1024 + q.val < 8192 := by have := q.isLt; omega
  rw [pay1_apply, bblk_apply m c p q ⟨_, hD⟩ rfl, bias_apply]
  refine congrArg (fun d => barr m c (ix1 d)) (Fin.ext ?_)
  show p.val / 8 * 1024 + q.val = (p.val / 8 * 1024 + q.val) % 8192
  exact (Nat.mod_eq_of_lt hD).symm

/-- The output block after every point, by induction on the point. -/
theorem outsAt_eq (c : Dev nD) (hx : ∀ i, (xarr m c i).toNat < 1024) :
    ∀ (p : ℕ) (hp : p < cfg0.N), outsAt0 m c p hp = acc m c p := by
  intro p
  induction p with
  | zero =>
    intro hp
    refine (outsAt0_A m c ⟨0, hp⟩ rfl).trans ?_
    refine (out_A c (grid0.coords ⟨0, hp⟩) (ms0_0 ⟨0, hp⟩) (hs0_0 ⟨0, hp⟩) (ms0_1 ⟨0, hp⟩) (hs0_1 ⟨0, hp⟩) (ms0_2 ⟨0, hp⟩) (hs0_2 ⟨0, hp⟩) (ms0_3 ⟨0, hp⟩) (hs0_3 ⟨0, hp⟩)
      ((hcond0_0 ⟨0, hp⟩).mpr rfl) (iblk m c 0 ⟨0, hp⟩) (iblk m c 1 ⟨0, hp⟩) (iblk m c 2 ⟨0, hp⟩)).trans ?_
    funext j
    obtain ⟨b, q, rfl⟩ : ∃ (b q : Fin 1024), j = ix2 b q := ⟨j 0, j 1, eq_ix2 j⟩
    refine (upd_apply m c hx ⟨0, hp⟩ (k0_pay1 (F := Ideal) (bblk m c ⟨0, hp⟩)) b q).trans ?_
    rw [bias_row_apply]
    show _ = barr m c (ix1 (fin8192 (0 / 8 * 1024 + q.val))) + ∑ s ∈ Finset.range (0 % 8 + 1), term (xarr m c) (warr m c) b.val (0 / 8 * 1024 + q.val) s
    rw [show (0 % 8 + 1 : ℕ) = 1 from rfl, Finset.sum_range_one]
    rfl
  | succ n ih =>
    intro hp
    have hN : n + 1 < 64 := lt_of_lt_of_eq hp (show cfg0.N = 64 from N_0)
    by_cases h0 : (n + 1) % 8 = 0
    · refine (outsAt0_A m c ⟨n + 1, hp⟩ h0).trans ?_
      refine (out_A c (grid0.coords ⟨n + 1, hp⟩) (ms0_0 ⟨n + 1, hp⟩) (hs0_0 ⟨n + 1, hp⟩) (ms0_1 ⟨n + 1, hp⟩) (hs0_1 ⟨n + 1, hp⟩) (ms0_2 ⟨n + 1, hp⟩) (hs0_2 ⟨n + 1, hp⟩) (ms0_3 ⟨n + 1, hp⟩) (hs0_3 ⟨n + 1, hp⟩)
        ((hcond0_0 ⟨n + 1, hp⟩).mpr h0) (iblk m c 0 ⟨n + 1, hp⟩) (iblk m c 1 ⟨n + 1, hp⟩) (iblk m c 2 ⟨n + 1, hp⟩)).trans ?_
      funext j
      obtain ⟨b, q, rfl⟩ : ∃ (b q : Fin 1024), j = ix2 b q := ⟨j 0, j 1, eq_ix2 j⟩
      refine (upd_apply m c hx ⟨n + 1, hp⟩ (k0_pay1 (F := Ideal) (bblk m c ⟨n + 1, hp⟩)) b q).trans ?_
      rw [bias_row_apply]
      show _ = barr m c (ix1 (fin8192 ((n + 1) / 8 * 1024 + q.val))) + ∑ s ∈ Finset.range ((n + 1) % 8 + 1), term (xarr m c) (warr m c) b.val ((n + 1) / 8 * 1024 + q.val) s
      rw [h0, Finset.sum_range_one]
    · have hB : ¬(⟨n + 1, hp⟩ : Fin cfg0.N).val % 8 = 0 := h0
      refine (outsAt0_B m c ⟨n + 1, hp⟩ hB).trans ?_
      refine (out_B c (grid0.coords ⟨n + 1, hp⟩) (ms0_0 ⟨n + 1, hp⟩) (hs0_0 ⟨n + 1, hp⟩) (ms0_1 ⟨n + 1, hp⟩) (hs0_1 ⟨n + 1, hp⟩) (ms0_2 ⟨n + 1, hp⟩) (hs0_2 ⟨n + 1, hp⟩) (ms0_3 ⟨n + 1, hp⟩) (hs0_3 ⟨n + 1, hp⟩)
        (fun h => hB ((hcond0_0 ⟨n + 1, hp⟩).mp h)) (iblk m c 0 ⟨n + 1, hp⟩) (iblk m c 1 ⟨n + 1, hp⟩) (iblk m c 2 ⟨n + 1, hp⟩)
        (outsAt0 m c ((⟨n + 1, hp⟩ : Fin cfg0.N).val - 1) (Nat.lt_of_le_of_lt (Nat.sub_le _ _) (⟨n + 1, hp⟩ : Fin cfg0.N).isLt))).trans ?_
      funext j
      obtain ⟨b, q, rfl⟩ : ∃ (b q : Fin 1024), j = ix2 b q := ⟨j 0, j 1, eq_ix2 j⟩
      refine (upd_apply m c hx ⟨n + 1, hp⟩ _ b q).trans ?_
      have hprev : outsAt0 m c ((⟨n + 1, hp⟩ : Fin cfg0.N).val - 1) (Nat.lt_of_le_of_lt (Nat.sub_le _ _) (⟨n + 1, hp⟩ : Fin cfg0.N).isLt) = acc m c n :=
        ih (Nat.lt_of_succ_lt hp)
      rw [hprev]
      show (barr m c (ix1 (fin8192 (n / 8 * 1024 + q.val))) + ∑ s ∈ Finset.range (n % 8 + 1), term (xarr m c) (warr m c) b.val (n / 8 * 1024 + q.val) s)
          + term (xarr m c) (warr m c) b.val ((n + 1) / 8 * 1024 + q.val) ((n + 1) % 8)
        = barr m c (ix1 (fin8192 ((n + 1) / 8 * 1024 + q.val))) + ∑ s ∈ Finset.range ((n + 1) % 8 + 1), term (xarr m c) (warr m c) b.val ((n + 1) / 8 * 1024 + q.val) s
      have e1 : n / 8 = (n + 1) / 8 := by omega
      have e2 : n % 8 + 1 = (n + 1) % 8 := by omega
      rw [e1, e2, Finset.sum_range_succ ((fun s => term (xarr m c) (warr m c) b.val ((n + 1) / 8 * 1024 + q.val) s)) ((n + 1) % 8), add_assoc]

end Cert.KernelIdeal.KInv

end
-- ==== Proof.KRun.lean ====
/-
  The kernel program's result.

  Output tile `n` of the [1024, 8192] array is written back once, after the point at context position 7 of that
  tile, when the resident block holds the bias plus all eight terms: block `(0, n)` of the specification's
  [1024, 8192] function. Feature `d` lies in tile `d / 1024`, so the eight write-backs cover the array and it ends
  at that function. The one host line after the region re-reads the array row-major as [1024, 8, 1024], which is the
  specification's result; no line of the program writes an argument array.
-/
import proofs.«423940_j240518168593_3_alg».proof.Proof.KInv
import Idealize.ShloMosaic.Lib.StableHlo.Run

noncomputable section

open Idealize.ShloMosaic Idealize.ShloMosaic.TcCoe Idealize.SL.Sem
open Idealize.ShloMosaic.Pipeline (Dat)

namespace Cert.KernelIdeal.KRun

open Cert.KernelIdeal Cert.KernelIdeal.Gen Idealize.ShloMosaic.ValueIdx
open Cert.KernelIdeal.KBlocks Cert.KernelIdeal.KHost Cert.KernelIdeal.KInv

variable (m : (ℓ : Loc nD τ sig) → Buf (Elt Ideal) ℓ) (ρ : Dev nD → PrngReg)

/-- The specification's [1024, 8192] function of the argument arrays on core `c`, as contents of the region's
    output array. -/
abbrev G2arr (c : Dev nD) : Buf (Elt Ideal) ((c : Thread nD τ).loc main_v4) :=
  Cert.Spec.G2 (xarr m c) (warr m c) (barr m c)

/-- What a point at context position 7 writes back is its block of the specification's function. -/
theorem flushed_eq (c : Dev nD) (hx : ∀ i, (xarr m c i).toNat < 1024) (t : Fin cfg0.N) (hf : (cfg0.win 3).flush t = true) :
    (dats m 0 c).flushed 3 t = ((cfg0.win 3).blk t).view.read (Elt Ideal) (G2arr m c) := by
  have h7 : t.val % 8 = 7 := (flush0_3 t).mp hf
  obtain ⟨-, -, -, ⟨h0, h1⟩, -⟩ := idx_facts t
  show (cfg0.win 3).cut (grid0.coords t) ((dats m 0 c).after 3 t) = _
  rw [after0_3, outsAt_eq m c hx]
  funext j
  show acc m c t.val j = Cert.Spec.G2 (xarr m c) (warr m c) (barr m c) (((cfg0.win 3).blk t).view.emb j)
  have e0 : ((((cfg0.win 3).blk t).view.emb j) 0).val = (j 0).val := by
    show win0_3.index t 0 * 1024 + 1 * (j 0).val = (j 0).val
    rw [h0]; omega
  have e1 : ((((cfg0.win 3).blk t).view.emb j) 1).val = t.val / 8 * 1024 + (j 1).val := by
    show win0_3.index t 1 * 1024 + 1 * (j 1).val = t.val / 8 * 1024 + (j 1).val
    rw [h1]; omega
  show barr m c (ix1 (Cert.Spec.fin8192 (t.val / 8 * 1024 + (j 1).val)))
      + ∑ s ∈ Finset.range (t.val % 8 + 1), Cert.Spec.term (xarr m c) (warr m c) (j 0).val (t.val / 8 * 1024 + (j 1).val) s
    = Cert.Spec.H (xarr m c) (warr m c) (barr m c) ((((cfg0.win 3).blk t).view.emb j) 0).val ((((cfg0.win 3).blk t).view.emb j) 1).val
  rw [e0, e1, h7]
  rfl

/-- An index of the array is in point `t`'s block iff each coordinate is in the block's range on its axis. -/
theorem mem_blk (t : Fin cfg0.N) (i : S1024x8192.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v4).slice (win0_3.rect t)).set ↔ _
  rw [View.set_slice_whole, Rect.mem_set_unit]
  exact Iff.rfl

/-- Every index of the array is in the block some point at context position 7 writes back: feature `d` in tile `d / 1024`. -/
theorem cover (i : S1024x8192.Idx) :
    ∃ t : Fin cfg0.N, (cfg0.win 3).flush t = true ∧ i ∈ ((cfg0.win 3).blk t).view.set := by
  have hi0 : (i 0).val < 1024 := (i 0).isLt
  have hi1 : (i 1).val < 8192 := (i 1).isLt
  have hN : cfg0.N = 64 := N_0
  have ht : (i 1).val / 1024 * 8 + 7 < cfg0.N := by rw [hN]; omega
  refine ⟨⟨(i 1).val / 1024 * 8 + 7, ht⟩, (flush0_3 _).mpr (by show ((i 1).val / 1024 * 8 + 7) % 8 = 7; omega), ?_⟩
  obtain ⟨-, -, -, ⟨h0, h1⟩, -⟩ := idx_facts ⟨(i 1).val / 1024 * 8 + 7, ht⟩
  rw [mem_blk]
  intro a
  match a with
  | ⟨0, _⟩ =>
    show win0_3.index ⟨(i 1).val / 1024 * 8 + 7, ht⟩ 0 * 1024 ≤ (i 0).val ∧ (i 0).val < win0_3.index ⟨(i 1).val / 1024 * 8 + 7, ht⟩ 0 * 1024 + 1024
    rw [h0]; omega
  | ⟨1, _⟩ =>
    show win0_3.index ⟨(i 1).val / 1024 * 8 + 7, ht⟩ 1 * 1024 ≤ (i 1).val ∧ (i 1).val < win0_3.index ⟨(i 1).val / 1024 * 8 + 7, ht⟩ 1 * 1024 + 1024
    rw [h1]
    show ((i 1).val / 1024 * 8 + 7) / 8 * 1024 ≤ (i 1).val ∧ (i 1).val < ((i 1).val / 1024 * 8 + 7) / 8 * 1024 + 1024
    omega

/-- The region's output array ends at the specification's [1024, 8192] function. -/
theorem final (c : Dev nD) (hx : ∀ i, (xarr m c i).toNat < 1024) : (dats m 0 c).arrAt 3 cfg0.N = G2arr m c :=
  (dats m 0 c).arrAt_eq_of_cover 3 (G2arr m c) (flushed_eq m c hx) (cover)

/-- The program's result buffer after the line that follows the region: the specification's result. -/
theorem tail_eq (c : Dev nD) (hx : ∀ i, (xarr m c i).toNat < 1024) :
    Pipeline.afterTail₀ cfgs (dats m) 0 (V0 m) [hostOps1] c main_v5 = Cert.Spec.G3 (xarr m c) (warr m c) (barr m c) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v4)
      = G2arr m c :=
    (Pipeline.withArrays_arr spec0 launch0.win.arr_inj c _ _ 3).trans (final m c hx)
  rw [e]
  exact Cert.Spec.shapeCast_G2 _ _ _ _

/-- With every token in [0, 1024): every weakly fair execution of the kernel's program ends, without a fault, with
    its result buffer at the specification's function of the arguments and its argument arrays as launched. -/
theorem run (hx : ∀ (c : Dev nD) (i : S1024x8.Idx), (xarr m c i).toNat < 1024) :
    θ_run (defs (F := Ideal)) (onTc (τ := τ) (main (F := Ideal))) ⟨m, fun _ => 0, ρ⟩ (fun r => ∀ c : Dev nD,
      r.2.mem ((c.tc : Thread nD τ).loc main_v5)
          = Cert.Spec.G3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (tail_eq m c (hx c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.KRun

end
-- ==== Proof.RefTerm.lean ====
/-
  The reference's result as one pure term of its three argument arrays, operation by operation as the host program
  applies them: the flat column indices `s · 1024 + x[b, s]`; an index below zero moved up by 8192; the test that the
  moved index lies in [0, 8191]; the columns of `W` taken at the moved indices, an out-of-range one replaced by the fill
  value; the sum over the eight context positions; the exchange of the two axes; the bias added along the rows; the
  [1024, 8192] array re-read row-major as [1024, 8, 1024].
-/
import proofs.«423940_j240518168593_3_alg».proof.ReferenceIdeal

noncomputable section

namespace Cert.ReferenceIdeal.RefSide

open Cert.ReferenceIdeal Cert.ReferenceIdeal.Facts₀ Cert.ReferenceIdeal.Facts
open Idealize.ShloMosaic

variable {F : FTy → Type} [FloatOps F] [Cert.ReferenceIdeal.Facts]

/-- The flat column indices: `s · 1024 + x[b, s]` at `(b, s)`, in 32-bit arithmetic. -/
def flat (x : IVec S1024x8 32) : IVec S1024x8 32 :=
  addi (broadcastInDim S1024x8 ![0, 1] bcast_S1x8_S1024x8_0_1 (broadcastInDim S1x8 ![1] bcast_S8_S1x8_1
    (muli (iotaInDim S8 32 0) (broadcastInDim S8 ![] bcast_S_S8 (constantI S_ 32 1024#32))))) x

/-- An index below zero is moved up by 8192 (counting from the end), any other kept; laid out as a [1024, 8, 1] table
    of one-word index vectors. -/
def moved (f : IVec S1024x8 32) : IVec S1024x8x1 32 :=
  broadcastInDim S1024x8x1 ![0, 1] bcast_S1024x8_S1024x8x1_0_1
    (select (cmpi .slt f (broadcastInDim S1024x8 ![] bcast_S_S1024x8 (constantI S_ 32 0#32)))
      (addi f (broadcastInDim S1024x8 ![] bcast_S_S1024x8 (constantI S_ 32 8192#32))) f)

/-- Whether the moved index lies in [0, 8191], at each `(b, s)`. -/
def inRange (i3 : IVec S1024x8x1 32) : IVec S1024x8 1 :=
  Host.reduce IntOp.andi
    (andi (cmpi .sge i3 (broadcastInDim S1024x8x1 ![] bcast_S_S1024x8x1 (constantI S_ 32 0#32)))
      (cmpi .sle i3 (broadcastInDim S1024x8x1 ![0, 1, 2] bcast_S1x1x1_S1024x8x1_0_1_2
        (broadcastInDim S1x1x1 ![2] bcast_S1_S1x1x1_2 (constantI S1 32 8191#32)))))
    (constantI S_ 1 1#1) reducesTo_S1024x8x1_S1024x8_d2 h_S_

/-- The taken columns [8192, 1024, 8]: at `(d, b, s)` the entry of row `d` of `W` at the moved index of `(b, s)`, or
    the fill value where that index is out of range. -/
def taken (W : FVec F S8192x8192 .f32) (i3 : IVec S1024x8x1 32) : FVec F S8192x1024x8 .f32 :=
  select (broadcastInDim S8192x1024x8 ![1, 2] bcast_S1024x8_S8192x1024x8_1_2 (inRange i3))
    (Host.gather gather_S8192x8192_S1024x8x1_S8192x1024x8_0_1_n_n_1_2_81921 W i3)
    (broadcastInDim S8192x1024x8 ![] bcast_S_S8192x1024x8 (constant S_ .f32 0x7FC00000#32))

/-- The result before the final re-layout, [1024, 8192]: the taken entries summed over the context positions, the two
    axes exchanged, the bias added along the rows. -/
def out2 (x : IVec S1024x8 32) (W : FVec F S8192x8192 .f32) (bias : FVec F S8192 .f32) : FVec F S1024x8192 .f32 :=
  addf
    (transpose S1024x8192 [1, 0]
      (Host.reduceAdd (taken W (moved (flat x))) (constant S_ .f32 0x00000000#32) reducesTo_S8192x1024x8_S8192x1024_d2 h_S_)
      transposes_S8192x1024_S1024x8192_1_0)
    (broadcastInDim S1024x8192 ![0, 1] bcast_S1x8192_S1024x8192_0_1 (broadcastInDim S1x8192 ![1] bcast_S8192_S1x8192_1 bias))

/-- The reference's result: `out2` re-read row-major as [1024, 8, 1024]. -/
def refTerm (x : IVec S1024x8 32) (W : FVec F S8192x8192 .f32) (bias : FVec F S8192 .f32) : FVec F S1024x8x1024 .f32 :=
  shapeCast S1024x8x1024 (out2 x W bias) shapeCasts_S1024x8192_S1024x8x1024

end Cert.ReferenceIdeal.RefSide

end
-- ==== Proof.RefRun.lean ====
/-
  The reference's run.

  The reference is a host program of thirty-seven operations in one straight line: seven of its own (the flat column
  indices `s · 1024 + x[b, s]`), the twenty-three of the column lookup it calls (an index below zero moved up by 8192 — one
  of them the selection the lookup itself calls —, the range test, the gather, the fill of out-of-range entries), and seven
  more of its own (the sum over the context positions, the exchange of the two axes, the bias added along the rows, the
  re-layout). Each operation writes one buffer of its own with a pure function of buffers written earlier or of the
  arguments, and none writes an argument. So every weakly fair execution terminates, without a fault, with the result
  buffer at the composition of those functions over the arguments' launch contents — the term `refTerm` — and with the
  three arguments as launched.
-/
import proofs.«423940_j240518168593_3_alg».proof.Proof.RefTerm
import proofs.«423940_j240518168593_3_alg».proof.Proof.Gen.ReferenceIdeal
import Idealize.ShloMosaic.Lib.StableHlo.Run
import Idealize.ShloMosaic.PureOps.Ideal

noncomputable section

namespace Cert.ReferenceIdeal.RefSide

open Cert.ReferenceIdeal Cert.ReferenceIdeal.Facts₀ Cert.ReferenceIdeal.Facts
open Idealize.ShloMosaic Idealize.ShloMosaic.StableHlo Idealize.ShloMosaic.TcCoe Idealize.SL.Sem

variable {F : FTy → Type} [FloatOps F]

/-- The weight array and the flat indices as the typed references the column lookup is called on. -/
abbrev tW : TRef sig ⟨S8192x8192, .f32⟩ := .of main_arg1
@[inherit_doc tW]
abbrev tIdx : TRef sig ⟨S1024x8, .i32⟩ := .of main_v5

/-- The reference's thirty-seven operations, in order, the two calls unfolded: the callee's operations stand at the call
    site, over the call's own buffers. -/
abbrev ops : List (HloOp τ sig (Elt F)) :=
  [ nullary main_v0 (iotaInDim S8 32 0),
    nullary main_c (constantI S_ 32 1024#32),
    unary main_c main_v1 (broadcastInDim S8 ![] bcast_S_S8 : (⟨S_, .i32⟩ : BufTy).Contents (Elt F) → (⟨S8, .i32⟩ : BufTy).Contents (Elt F)),
    binary main_v0 main_v1 main_v2 (muli : (⟨S8, .i32⟩ : BufTy).Contents (Elt F) → (⟨S8, .i32⟩ : BufTy).Contents (Elt F) → (⟨S8, .i32⟩ : BufTy).Contents (Elt F)),
    unary main_v2 main_v3 (broadcastInDim S1x8 ![1] bcast_S8_S1x8_1 : (⟨S8, .i32⟩ : BufTy).Contents (Elt F) → (⟨S1x8, .i32⟩ : BufTy).Contents (Elt F)),
    unary main_v3 main_v4 (broadcastInDim S1024x8 ![0, 1] bcast_S1x8_S1024x8_0_1 : (⟨S1x8, .i32⟩ : BufTy).Contents (Elt F) → (⟨S1024x8, .i32⟩ : BufTy).Contents (Elt F)),
    binary main_v4 main_arg0 main_v5 (addi : (⟨S1024x8, .i32⟩ : BufTy).Contents (Elt F) → (⟨S1024x8, .i32⟩ : BufTy).Contents (Elt F) → (⟨S1024x8, .i32⟩ : BufTy).Contents (Elt F)),
    TRef.nullary main_call0.c (constantI S_ 32 0#32),
    TRef.unary main_call0.c main_call0.v0 (broadcastInDim S1024x8 ![] bcast_S_S1024x8),
    TRef.binary tIdx main_call0.v0 main_call0.v1 (cmpi .slt),
    TRef.nullary main_call0.c_0 (constantI S_ 32 8192#32),
    TRef.unary main_call0.c_0 main_call0.v2 (broadcastInDim S1024x8 ![] bcast_S_S1024x8),
    TRef.binary tIdx main_call0.v2 main_call0.v3 addi,
    TRef.ternary main_call0.v1 main_call0.v3 tIdx main_call0.call0.v0 select,
    TRef.unary main_call0.call0.v0 main_call0.v5 (broadcastInDim S1024x8x1 ![0, 1] bcast_S1024x8_S1024x8x1_0_1),
    TRef.nullary main_call0.c_1 (constantI S1 32 8191#32),
    TRef.nullary main_call0.c_2 (constantI S_ 32 0#32),
    TRef.unary main_call0.c_2 main_call0.v6 (broadcastInDim S1024x8x1 ![] bcast_S_S1024x8x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x8x1 ![0, 1, 2] bcast_S1x1x1_S1024x8x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x8x1_S1024x8_d2 h_S_),
    TRef.binary tW main_call0.v5 main_call0.v13 (fun x i => Host.gather gather_S8192x8192_S1024x8x1_S8192x1024x8_0_1_n_n_1_2_81921 x i),
    TRef.unary main_call0.v12 main_call0.v14 (broadcastInDim S8192x1024x8 ![1, 2] bcast_S1024x8_S8192x1024x8_1_2),
    TRef.nullary main_call0.cst (constant S_ .f32 0x7FC00000#32),
    TRef.unary main_call0.cst main_call0.v15 (broadcastInDim S8192x1024x8 ![] bcast_S_S8192x1024x8),
    TRef.ternary main_call0.v14 main_call0.v13 main_call0.v15 main_call0.v16 select,
    nullary main_cst (constant S_ .f32 0x00000000#32),
    binary main_v6 main_cst main_v7 ((fun x v => Host.reduceAdd x v reducesTo_S8192x1024x8_S8192x1024_d2 h_S_) : (⟨S8192x1024x8, .f32⟩ : BufTy).Contents (Elt F) → (⟨S_, .f32⟩ : BufTy).Contents (Elt F) → (⟨S8192x1024, .f32⟩ : BufTy).Contents (Elt F)),
    unary main_v7 main_v8 ((transpose S1024x8192 [1, 0] · transposes_S8192x1024_S1024x8192_1_0) : (⟨S8192x1024, .f32⟩ : BufTy).Contents (Elt F) → (⟨S1024x8192, .f32⟩ : BufTy).Contents (Elt F)),
    unary main_arg2 main_v9 (broadcastInDim S1x8192 ![1] bcast_S8192_S1x8192_1 : (⟨S8192, .f32⟩ : BufTy).Contents (Elt F) → (⟨S1x8192, .f32⟩ : BufTy).Contents (Elt F)),
    unary main_v9 main_v10 (broadcastInDim S1024x8192 ![0, 1] bcast_S1x8192_S1024x8192_0_1 : (⟨S1x8192, .f32⟩ : BufTy).Contents (Elt F) → (⟨S1024x8192, .f32⟩ : BufTy).Contents (Elt F)),
    binary main_v8 main_v10 main_v11 (addf : (⟨S1024x8192, .f32⟩ : BufTy).Contents (Elt F) → (⟨S1024x8192, .f32⟩ : BufTy).Contents (Elt F) → (⟨S1024x8192, .f32⟩ : BufTy).Contents (Elt F)),
    reshape main_v11 main_v12 rfl shapeCasts_S1024x8192_S1024x8x1024 ]

-- thirty-seven binds re-associated: the rewrite under the chain recurses once per statement
set_option maxRecDepth 1024 in
/-- The program is that straight line: the two functions' definitions unfolded at their calls, both sides are one chain of
    host steps once sequencing is re-associated. -/
theorem main_eq (c : Dev nD) : main (F := F) c = seq ops := by
  simp only [main, fn_take.body, fn_where.body, seq, bind_assoc, pure_bind]

attribute [local irreducible] Host.reduce Host.reduceAdd Host.gather in
set_option maxRecDepth 8192 in
set_option maxHeartbeats 800000 in
/-- The fold at the result buffer is `refTerm` of the arguments: each operation's result at its own buffer is its function
    of its operands' contents, and at any other buffer what was there; what is left once every operation is read back is
    `refTerm`'s stages spelt out, up to the typed references' transports, which are the identity at these literal
    references. The reductions and the gather are kept folded meanwhile (the equation never looks inside them). -/
theorem out_eq (V : Valuation τ sig (Elt F)) :
    after ops V (main_v12 : DevRef τ sig)
      = refTerm (F := F) (V (main_arg0 : DevRef τ sig)) (V (main_arg1 : DevRef τ sig)) (V (main_arg2 : DevRef τ sig)) := by
  after_results_simp
  unfold refTerm out2 taken inRange moved flat
  rfl

/-- No operation writes an argument. -/
theorem arg0_eq (V : Valuation τ sig (Elt F)) :
    after ops V (main_arg0 : DevRef τ sig) = V (main_arg0 : DevRef τ sig) := by
  simp only [after_cons, after_nil]
  rfl

@[inherit_doc arg0_eq]
theorem arg1_eq (V : Valuation τ sig (Elt F)) :
    after ops V (main_arg1 : DevRef τ sig) = V (main_arg1 : DevRef τ sig) := by
  simp only [after_cons, after_nil]
  rfl

@[inherit_doc arg0_eq]
theorem arg2_eq (V : Valuation τ sig (Elt F)) :
    after ops V (main_arg2 : DevRef τ sig) = V (main_arg2 : DevRef τ sig) := by
  simp only [after_cons, after_nil]
  rfl

/-- The signature scopes no buffer and no semaphore. -/
theorem scopedRefs_eq : (Finset.univ.filter fun b : Ref sig .tc => b.isScoped) = ∅ := by decide
@[inherit_doc scopedRefs_eq]
theorem scopedSems_eq : (Finset.univ.filter fun sm : SemLoc sig => sm.isScoped .tc) = ∅ := by decide

/-- Every operation reads and writes TensorCore buffers only. -/
theorem ops_sub : (ops : List (HloOp τ sig (Elt F))).Forall fun op => op.bufs ⊆ tcRefs τ sig :=
  ⟨nullary_bufs_sub .., nullary_bufs_sub .., unary_bufs_sub .., binary_bufs_sub .., unary_bufs_sub .., unary_bufs_sub ..,
    binary_bufs_sub ..,
    nullary_bufs_sub .., unary_bufs_sub .., binary_bufs_sub .., nullary_bufs_sub .., unary_bufs_sub .., binary_bufs_sub ..,
    ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub ..,
    nullary_bufs_sub .., binary_bufs_sub .., unary_bufs_sub .., unary_bufs_sub .., unary_bufs_sub .., binary_bufs_sub ..,
    reshape_bufs_sub ..⟩

/-- For any float values, from any memory with zero counters: every weakly fair execution of the reference terminates, and
    every final state has each buffer at the fold of the operations' results over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Every weakly fair execution of the reference ends, without a fault, with its result array at `refTerm` of the three
    argument arrays as launched, and with those arrays as launched. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12)
          = refTerm (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v12).trans (out_eq _), (h c main_arg0).trans (arg0_eq _),
      (h c main_arg1).trans (arg1_eq _), (h c main_arg2).trans (arg2_eq _)⟩)
    (run_all (F := Ideal) m ρ)

end Cert.ReferenceIdeal.RefSide

end
-- ==== Proof.RefRead.lean ====
/-
  The reference's value, index by index: with every token in [0, 1024) the reference's result is the specification's
  array.

  At (b, s) the flat column index is the word s · 1024 + x[b, s]; with the token below 1024 it is the number
  s · 1024 + x[b, s] < 8192, so nothing wraps, it is not below zero and is not moved, and it passes the test
  0 ≤ index ≤ 8191: the mask is set and the fill value is never used. The take at (d, b, s) reads row d of the table
  at the start index of (b, s), signed and clamped into [0, 8191], which is the identity on such a number. The sum over
  the last axis from the zero constant is the sum over the eight context positions; the two axes are exchanged and the
  bias entry added; on coordinates in range the specification's reductions are the identity. The re-layout to
  [1024, 8, 1024] is the specification's own.
-/
import proofs.«423940_j240518168593_3_alg».proof.Proof.RefTerm
import proofs.«423940_j240518168593_3_alg».proof.Proof.Spec
import proofs.«423940_j240518168593_3_alg».proof.Proof.Gen.ReferenceIdeal
import Idealize.ShloMosaic.Lib.ValueIdx
import Idealize.ShloMosaic.Lib.IdealHost
import Idealize.ShloMosaic.Lib.Pipeline.Value
import Idealize.ShloMosaic.Lib.StableHlo.Predicate
import Idealize.ShloMosaic.PureOps.Ideal.Laws
import Idealize.ShloMosaic.PureOps.Reduce

noncomputable section

namespace Cert.ReferenceIdeal.RefSide

open Cert.ReferenceIdeal Cert.ReferenceIdeal.Facts₀ Cert.ReferenceIdeal.Facts
open Idealize.ShloMosaic Idealize.ShloMosaic.ValueIdx
open Idealize.ShloMosaic.StableHlo.Predicate
open scoped BigOperators

/-- The flat column index at (b, s), as a word: the position's word times 1024 plus the token word. -/
theorem flat_apply (x : IVec S1024x8 32) (b : Fin 1024) (s : Fin 8) :
    flat x (ix2 b s) = BitVec.ofNat 32 s.val * 1024#32 + x (ix2 b s) := rfl

/-- With the token below 1024 nothing wraps: the flat index is the number s · 1024 + x[b, s]. -/
theorem flat_toNat (x : IVec S1024x8 32) (b : Fin 1024) (s : Fin 8) (hx : (x (ix2 b s)).toNat < 1024) :
    (flat x (ix2 b s)).toNat = s.val * 1024 + (x (ix2 b s)).toNat := by
  rw [flat_apply]
  have hs := s.isLt
  rw [BitVec.toNat_add, BitVec.toNat_mul, BitVec.toNat_ofNat, BitVec.toNat_ofNat]
  omega

/-- An index below 2³¹ is not below zero, so it is kept. -/
theorem moved_apply (f : IVec S1024x8 32) (b : Fin 1024) (s : Fin 8) (u : Fin 1) (hf : (f (ix2 b s)).toNat < 2 ^ 31) :
    moved f (ix3 b s u) = f (ix2 b s) := by
  have hc : ¬ IntOp.cmpi .slt (f (ix2 b s)) 0#32 = 1#1 := by
    rw [slt_iff_toNat hf (by decide)]; simp
  unfold moved
  refine (broadcastInDim_apply _ _ _ (ix3 b s u) (ix2 b s)
    (fun a => by match a with | ⟨0, _⟩ => rfl | ⟨1, _⟩ => rfl)).trans ?_
  rw [select_apply]
  show Scalar.select (IntOp.cmpi .slt (f (ix2 b s)) 0#32) _ (f (ix2 b s)) = _
  rw [eq_zero_of_ne_one hc, select_zero]

/-- The source index over (b, s) with the unit coordinate inserted on the last axis. -/
theorem lift_unit (h : S1024x8x1.Reduces [2] S1024x8) (b : Fin 1024) (s : Fin 8) (k : Fin (S1024x8x1.size 2)) :
    h.lift (ix2 b s) k = ix3 b s (0 : Fin 1) := by
  funext c
  match c with
  | ⟨0, _⟩ => rfl
  | ⟨1, _⟩ => rfl
  | ⟨2, _⟩ => exact Fin.ext (by have hk : k.val < 1 := k.isLt; show k.val = 0; omega)

/-- A conjunction of set bits folded from the set bit over a one-element axis is the set bit. -/
theorem fold_andi_unit (g : Fin 1 → BitVec 1) (hg : ∀ k, g k = 1#1) :
    Finset.fold IntOp.andi 1#1 g (Finset.univ : Finset (Fin 1)) = 1#1 := by
  rw [show (Finset.univ : Finset (Fin 1)) = {0} from by decide, Finset.fold_singleton, hg]
  decide

/-- An index in [0, 8191] passes both tests, and the conjunction over the one-element last axis is their conjunction. -/
theorem inRange_apply (i3 : IVec S1024x8x1 32) (b : Fin 1024) (s : Fin 8) (hi : (i3 (ix3 b s (0 : Fin 1))).toNat ≤ 8191) :
    inRange i3 (ix2 b s) = 1#1 := by
  have h : S1024x8x1.Reduces [2] S1024x8 := by decide
  have hge : IntOp.cmpi .sge (i3 (ix3 b s (0 : Fin 1))) 0#32 = 1#1 := by
    rw [sge_iff_toNat (by omega) (by decide)]; simp
  have hle : IntOp.cmpi .sle (i3 (ix3 b s (0 : Fin 1))) 8191#32 = 1#1 := by
    rw [sle_iff_toNat (by omega) (by decide)]; simpa using hi
  unfold inRange
  rw [Host.reduce_eq_fold_single IntOp.andi _ _ _ h _ (ix2 b s)]
  refine fold_andi_unit _ (fun (k : Fin (S1024x8x1.size 2)) => ?_)
  show IntOp.andi (IntOp.cmpi .sge (i3 (h.lift (ix2 b s) k)) 0#32)
      (IntOp.cmpi .sle (i3 (h.lift (ix2 b s) k)) 8191#32) = 1#1
  rw [lift_unit h b s k, hge, hle]
  decide

/-- The start-indices index the take at (d, b, s) reads: (b, s, 0). -/
theorem gather_siIdx (d : Fin 8192) (b : Fin 1024) (s : Fin 8)
    (c : Fin gather_S8192x8192_S1024x8x1_S8192x1024x8_0_1_n_n_1_2_81921.startIndexMap.length) :
    gather_S8192x8192_S1024x8x1_S8192x1024x8_0_1_n_n_1_2_81921.siIdx (ix3 d b s) c = ix3 b s (0 : Fin 1) := by
  have hc : c.val < 1 := c.isLt
  funext a
  refine Fin.ext ?_
  match a with
  | ⟨0, _⟩ => rfl
  | ⟨1, _⟩ => rfl
  | ⟨2, _⟩ => show c.val = 0; omega

/-- On the row axis the take at (d, b, s) reads row d: the whole axis is an offset axis and no start index names it. -/
theorem gather_coord0 (i3 : IVec S1024x8x1 32) (d : Fin 8192) (b : Fin 1024) (s : Fin 8) :
    (gather_S8192x8192_S1024x8x1_S8192x1024x8_0_1_n_n_1_2_81921.operandIdx (ix3 d b s) i3 (0 : Fin 2)).val = d.val := by
  show gather_S8192x8192_S1024x8x1_S8192x1024x8_0_1_n_n_1_2_81921.start (ix3 d b s) i3 (0 : Fin 2)
    + gather_S8192x8192_S1024x8x1_S8192x1024x8_0_1_n_n_1_2_81921.batchCoord (ix3 d b s) (0 : Fin 2)
    + gather_S8192x8192_S1024x8x1_S8192x1024x8_0_1_n_n_1_2_81921.offCoord (ix3 d b s) (0 : Fin 2) = _
  rw [GatherDims.batchCoord_eq_zero _ _ _ List.not_mem_nil, Nat.add_zero]
  unfold GatherDims.start
  rw [dif_neg (by decide), Nat.zero_add]
  unfold GatherDims.offCoord
  rw [dif_pos (by decide)]
  rfl

/-- On the column axis it reads the start index of (b, s), signed and clamped into [0, 8191]: the axis is collapsed. -/
theorem gather_coord1 (i3 : IVec S1024x8x1 32) (d : Fin 8192) (b : Fin 1024) (s : Fin 8) :
    (gather_S8192x8192_S1024x8x1_S8192x1024x8_0_1_n_n_1_2_81921.operandIdx (ix3 d b s) i3 (1 : Fin 2)).val
      = min (i3 (ix3 b s (0 : Fin 1))).toInt.toNat 8191 := by
  show gather_S8192x8192_S1024x8x1_S8192x1024x8_0_1_n_n_1_2_81921.start (ix3 d b s) i3 (1 : Fin 2)
    + gather_S8192x8192_S1024x8x1_S8192x1024x8_0_1_n_n_1_2_81921.batchCoord (ix3 d b s) (1 : Fin 2)
    + gather_S8192x8192_S1024x8x1_S8192x1024x8_0_1_n_n_1_2_81921.offCoord (ix3 d b s) (1 : Fin 2) = _
  rw [GatherDims.batchCoord_eq_zero _ _ _ List.not_mem_nil, Nat.add_zero,
    GatherDims.offCoord_eq_zero _ _ _ (fun h => ((GatherDims.mem_sKept _ _).mp h).1 (List.mem_singleton.mpr rfl)), Nat.add_zero]
  unfold GatherDims.start
  rw [dif_pos (show (1 : Fin 2) ∈ gather_S8192x8192_S1024x8x1_S8192x1024x8_0_1_n_n_1_2_81921.startIndexMap from
    List.mem_singleton.mpr rfl), gather_siIdx]
  rfl

/-- THE TAKE READ AT (d, b, s): row d of the table at the start index of (b, s), read signed and clamped into
    [0, 8191]. -/
theorem gather_apply {α : Type} (W : S8192x8192.Idx → α) (i3 : IVec S1024x8x1 32) (d : Fin 8192) (b : Fin 1024) (s : Fin 8) :
    Host.gather gather_S8192x8192_S1024x8x1_S8192x1024x8_0_1_n_n_1_2_81921 W i3 (ix3 d b s)
      = W (ix2 d ⟨min (i3 (ix3 b s (0 : Fin 1))).toInt.toNat 8191, by omega⟩) := by
  unfold Host.gather
  congr 1
  funext a
  refine Fin.ext ?_
  match a with
  | ⟨0, _⟩ => exact gather_coord0 i3 d b s
  | ⟨1, _⟩ => exact gather_coord1 i3 d b s

/-- The moved flat index at (b, s, 0) is the number s · 1024 + x[b, s]: it is not below zero, so nothing is moved. -/
theorem idx_toNat (x : IVec S1024x8 32) (b : Fin 1024) (s : Fin 8) (hx : (x (ix2 b s)).toNat < 1024) :
    (moved (flat x) (ix3 b s (0 : Fin 1))).toNat = s.val * 1024 + (x (ix2 b s)).toNat := by
  have hf := flat_toNat x b s hx
  have hs := s.isLt
  rw [moved_apply (flat x) b s 0 (by rw [hf]; omega), hf]

/-- The taken entry at (d, b, s): the index is in range, so the mask is set and the fill value is not used; the clamp
    and the signed reading are the identity on a number below 8192. -/
theorem taken_apply (x : IVec S1024x8 32) (W : FVec Ideal S8192x8192 .f32) (d : Fin 8192) (b : Fin 1024) (s : Fin 8)
    (hx : (x (ix2 b s)).toNat < 1024) :
    taken (F := Ideal) W (moved (flat x)) (ix3 d b s)
      = W (ix2 d ⟨s.val * 1024 + (x (ix2 b s)).toNat, by have := s.isLt; omega⟩) := by
  have hi := idx_toNat x b s hx
  have hs := s.isLt
  have hti : (moved (flat x) (ix3 b s (0 : Fin 1))).toInt = ((moved (flat x) (ix3 b s (0 : Fin 1))).toNat : ℤ) :=
    toInt_eq_toNat_of_lt (by omega)
  unfold taken
  rw [select_apply]
  rw [broadcastInDim_apply _ _ (inRange (moved (flat x))) (ix3 d b s) (ix2 b s)
    (fun a => by match a with | ⟨0, _⟩ => rfl | ⟨1, _⟩ => rfl)]
  rw [inRange_apply _ b s (by omega), select_one, gather_apply]
  refine congrArg (fun c => W (ix2 d c)) (Fin.ext ?_)
  show min (moved (flat x) (ix3 b s (0 : Fin 1))).toInt.toNat 8191 = s.val * 1024 + (x (ix2 b s)).toNat
  rw [hti]
  omega

/-- The source index over (d, b) with context position k inserted on the last axis. -/
theorem lift_pos (h : S8192x1024x8.Reduces [2] S8192x1024) (d : Fin 8192) (b : Fin 1024) (k : Fin 8) :
    h.lift (ix2 d b) k = ix3 d b k := by
  funext c
  match c with
  | ⟨0, _⟩ => rfl
  | ⟨1, _⟩ => rfl
  | ⟨2, _⟩ => rfl

/-- On coordinates in range the specification's reductions are the identity: its term at (b, d, s) is the entry of row
    d of the table at column s · 1024 + x[b, s]. -/
theorem term_eq (x : IVec S1024x8 32) (W : FVec Ideal S8192x8192 .f32) (b : Fin 1024) (d : Fin 8192) (s : Fin 8)
    (hx : (x (ix2 b s)).toNat < 1024) :
    Cert.Spec.term x W b.val d.val s.val
      = W (ix2 d ⟨s.val * 1024 + (x (ix2 b s)).toNat, by have := s.isLt; omega⟩) := by
  have hb : Cert.Spec.fin1024 b.val = b := Fin.ext (Nat.mod_eq_of_lt b.isLt)
  have hs : Cert.Spec.fin8 s.val = s := Fin.ext (Nat.mod_eq_of_lt s.isLt)
  have hd : Cert.Spec.fin8192 d.val = d := Fin.ext (Nat.mod_eq_of_lt d.isLt)
  unfold Cert.Spec.term Cert.Spec.tok
  rw [hb, hs, hd]
  refine congrArg (fun c => W (ix2 d c)) (Fin.ext ?_)
  show (s.val % 8) * 1024 + (x (ix2 b s)).toNat % 1024 = s.val * 1024 + (x (ix2 b s)).toNat
  rw [Nat.mod_eq_of_lt s.isLt, Nat.mod_eq_of_lt hx]

/-- The result before the re-layout, at (b, d): the bias entry plus the eight selected table entries. -/
theorem out2_apply (x : IVec S1024x8 32) (W : FVec Ideal S8192x8192 .f32) (bias : FVec Ideal S8192 .f32)
    (hx : ∀ i, (x i).toNat < 1024) (b : Fin 1024) (d : Fin 8192) :
    out2 (F := Ideal) x W bias (ix2 b d) = Cert.Spec.H x W bias b.val d.val := by
  have h : S8192x1024x8.Reduces [2] S8192x1024 := by decide
  have hd : Cert.Spec.fin8192 d.val = d := Fin.ext (Nat.mod_eq_of_lt d.isLt)
  unfold out2
  rw [addf_apply]
  rw [transpose_apply [1, 0] _ _ (ix2 b d) (ix2 d b) (fun c => by match c with | ⟨0, _⟩ => rfl | ⟨1, _⟩ => rfl)]
  rw [hostReduceAdd_apply, Ideal.hostReduceAdd_single _ h, constant_apply, Ideal.ofBits_zero_f32, zero_add]
  rw [broadcastInDim_apply _ _ _ (ix2 b d) (ix2 (0 : Fin 1) d) (fun a => by match a with | ⟨0, _⟩ => rfl | ⟨1, _⟩ => rfl)]
  rw [broadcastInDim_apply _ _ bias (ix2 (0 : Fin 1) d) (ix1 d) (fun a => by match a with | ⟨0, _⟩ => rfl)]
  unfold Cert.Spec.H
  rw [hd, add_comm]
  congr 1
  rw [← Fin.sum_univ_eq_sum_range (fun s => Cert.Spec.term x W b.val d.val s) 8]
  refine Finset.sum_congr rfl (fun k _ => ?_)
  exact (congrArg (taken (F := Ideal) W (moved (flat x))) (lift_pos h d b k)).trans
    ((taken_apply x W d b k (hx _)).trans (term_eq x W b d k (hx _)).symm)

/-- The result before the re-layout is the specification's [1024, 8192] array. -/
theorem out2_eq (x : IVec S1024x8 32) (W : FVec Ideal S8192x8192 .f32) (bias : FVec Ideal S8192 .f32)
    (hx : ∀ i, (x i).toNat < 1024) : out2 (F := Ideal) x W bias = Cert.Spec.G2 x W bias := by
  funext j
  obtain ⟨b, d, rfl⟩ : ∃ (b : Fin 1024) (d : Fin 8192), j = ix2 b d := ⟨j 0, j 1, eq_ix2 j⟩
  exact out2_apply x W bias hx b d

/-- THE REFERENCE'S VALUE: with every token in [0, 1024) the reference's result is the specification's array. -/
theorem refTerm_eq (x : IVec S1024x8 32) (W : FVec Ideal S8192x8192 .f32) (bias : FVec Ideal S8192 .f32)
    (hx : ∀ i, (x i).toNat < 1024) : refTerm (F := Ideal) x W bias = Cert.Spec.G3 x W bias := by
  unfold refTerm
  rw [out2_eq x W bias hx]
  exact Cert.Spec.shapeCast_G2 x W bias _

end Cert.ReferenceIdeal.RefSide

end
-- ==== Proof.RefValue.lean ====
/-
  The reference's result, index by index.

  The reference forms the flat column index `s · 1024 + x[b, s]` of every row `b` and context position `s`, takes those
  columns of `W` (an index below zero is first moved up by 8192, and an index outside [0, 8191] would select a fill
  value instead of an entry of `W`), sums the eight taken entries of each row of `W`, exchanges the two axes, adds the
  bias along the rows and re-reads the [1024, 8192] array row-major as [1024, 8, 1024]. For tokens in [0, 1024) every
  flat index lies in [0, 8192): nothing is moved, nothing is filled, and entry `(b, t, v)` of the result is
  `bias[d] + Σ_{s < 8} W[d, s · 1024 + x[b, s]]` at `d = t · 1024 + v`.
-/
import proofs.«423940_j240518168593_3_alg».proof.Proof.RefRun
import proofs.«423940_j240518168593_3_alg».proof.Proof.RefRead

noncomputable section

namespace Cert.ReferenceIdeal.RefSide

open Cert.ReferenceIdeal
open Idealize.ShloMosaic Idealize.ShloMosaic.TcCoe Idealize.SL.Sem

/-- Every weakly fair execution of the reference ends, without a fault, with its three argument arrays as launched. -/
theorem run_kept (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run_term m ρ)

/-- With every token in [0, 1024), it ends with its result array at the specification's function of the arguments. -/
theorem run_value (m : (ℓ : Loc nD τ sig) → Buf (Elt Ideal) ℓ) (ρ : Dev nD → PrngReg)
    (hx : ∀ (c : Dev nD) (i : S1024x8.Idx), ((m ((c.tc : Thread nD τ).loc main_arg0) : IVec S1024x8 32) i).toNat < 1024) :
    θ_run (defs (F := Ideal)) (onTc (τ := τ) (main (F := Ideal))) ⟨m, fun _ => 0, ρ⟩ (fun r => ∀ c : Dev nD,
      r.2.mem ((c.tc : Thread nD τ).loc main_v12)
          = Cert.Spec.G3 (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (refTerm_eq _ _ _ (hx c)), (h c).2⟩) (run_term m ρ)

end Cert.ReferenceIdeal.RefSide

end
-- ==== Proof.lean ====
/-
  The claim: under the precondition (every float input finite, every token in [0, 1024)) the kernel's program, its
  idealization and the reference's idealization each run to the end without a fault and leave their argument arrays
  unchanged; the idealization is the kernel's own text read over the extended reals (the ideal pass rewrote nothing);
  and from memories agreeing on the arguments the two idealized programs end with equal results.

  Both results are one function of the arguments: entry `(b, t, v)` is `bias[d] + Σ_{s < 8} W[d, s · 1024 + x[b, s]]` at
  `d = t · 1024 + v`. The kernel reaches it as a one-hot matrix product accumulated over the eight context positions
  into a block initialised with the bias; the reference as a gather of the selected columns summed over the context
  positions, plus the bias. The two differ only in the order of a finite sum of extended reals, and in that the kernel
  clamps a token into [0, 1023] where the reference would address a neighbouring context position's columns — which
  the precondition's range excludes. Finiteness of the float inputs is not used.
-/
import proofs.«423940_j240518168593_3_alg».proof.Defs
import proofs.«423940_j240518168593_3_alg».proof.Proof.Gen.Kernel
import proofs.«423940_j240518168593_3_alg».proof.Proof.Gen.Kernel.Frame
import proofs.«423940_j240518168593_3_alg».proof.Proof.Gen.KernelIdeal
import proofs.«423940_j240518168593_3_alg».proof.Proof.Gen.KernelIdeal.Frame
import proofs.«423940_j240518168593_3_alg».proof.Proof.Gen.ReferenceIdeal
import proofs.«423940_j240518168593_3_alg».proof.Proof.Gen.Pre_finite_inputs
import proofs.«423940_j240518168593_3_alg».proof.Proof.Range
import proofs.«423940_j240518168593_3_alg».proof.Proof.KRun
import proofs.«423940_j240518168593_3_alg».proof.Proof.RefValue
import Idealize.ShloMosaic.Adequacy
import Idealize.ShloMosaic.Init

noncomputable section

namespace Cert.Proof

open Idealize.ShloMosaic Idealize.SL.Sem

/-- The kernel's program at the word level: the generated frame. -/
theorem frame_k : Cert.frame_Kernel := fun m ρ _ => Cert.Kernel.Gen.frame m ρ

/-- The kernel's idealization: the generated frame. -/
theorem frame_ki : Cert.frame_KernelIdeal := fun m ρ _ => Cert.KernelIdeal.Gen.frame m ρ

/-- The reference's idealization: its run, the result dropped. -/
theorem frame_ri : Cert.frame_ReferenceIdeal := fun m ρ _ => Cert.ReferenceIdeal.RefSide.run_kept m ρ

/-- The ideal pass rewrote no operation. -/
theorem preserves : Cert.preserves_Kernel_KernelIdeal := trivial

/-- Both idealized programs end at the specification's function of the (agreeing) arguments. -/
theorem algebraic : Cert.algebraic_KernelIdeal_ReferenceIdeal := by
  intro m ρ m' ρ' hpre hagree
  have hx : ∀ (c : Dev Cert.KernelIdeal.nD) (i : Cert.KernelIdeal.S1024x8.Idx),
      ((m ((c.tc : Thread Cert.KernelIdeal.nD Cert.KernelIdeal.τ).loc Cert.KernelIdeal.main_arg0) : IVec Cert.KernelIdeal.S1024x8 32) i).toNat < 1024 :=
    fun c i => Cert.Range.tok_lt _ _ _ (hpre c) i
  have hx' : ∀ (c : Dev Cert.ReferenceIdeal.nD) (i : Cert.ReferenceIdeal.S1024x8.Idx),
      ((m' ((c.tc : Thread Cert.ReferenceIdeal.nD Cert.ReferenceIdeal.τ).loc Cert.ReferenceIdeal.main_arg0) : IVec Cert.ReferenceIdeal.S1024x8 32) i).toNat < 1024 :=
    fun c i => by rw [(hagree c).1]; exact hx c i
  refine ⟨_, Cert.KernelIdeal.KRun.run m ρ hx, ?_⟩
  refine (θ_run Cert.ReferenceIdeal.defs _ _).mono (fun _ h c => ⟨(h c).1.trans ?_, (h c).2⟩)
    (Cert.ReferenceIdeal.RefSide.run_value m' ρ' hx')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
